-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S524288 : Shape := ⟨1, ![524288]⟩
abbrev S13x256 : Shape := ⟨2, ![13, 256]⟩
abbrev S512x256 : Shape := ⟨2, ![512, 256]⟩
abbrev S256 : Shape := ⟨1, ![256]⟩
abbrev S256x256 : Shape := ⟨2, ![256, 256]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S13x256 : S_.BroadcastsInDim S13x256 (![] : Fin 0 → Fin S13x256.rank)
  reducesTo_S13x256_S_d0_1 : S13x256.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S524288 : S_.BroadcastsInDim S524288 (![] : Fin 0 → Fin S524288.rank)
  reducesTo_S524288_S_d0 : S524288.ReducesTo [0] S_

variable [Facts]

def fn_part2 {F : FTy → Type} [FloatOps F] (main_arg2 : IVec S524288 32) (main_arg3 : IVec S524288 32) (main_v32 : IVec S_ 1) (main_c_12 : IVec S_ 32) : IVec S_ 1 :=
  let main_v33 : IVec S524288 32 := broadcastInDim S524288 ![] bcast_S_S524288 main_c_12
  let main_v34 : IVec S524288 1 := cmpi .sge main_arg2 main_v33
  let main_c_13 : IVec S_ 1 := constantI S_ 1 1#1
  let main_v35 : IVec S_ 1 := (fun x v => Host.reduce IntOp.andi x v reducesTo_S524288_S_d0 h_S_) main_v34 main_c_13
  let main_v36 : IVec S_ 1 := andi main_v32 main_v35
  let main_c_14 : IVec S_ 32 := constantI S_ 32 0#32
  let main_v37 : IVec S524288 32 := broadcastInDim S524288 ![] bcast_S_S524288 main_c_14
  let main_v38 : IVec S524288 1 := cmpi .sge main_arg3 main_v37
  let main_c_15 : IVec S_ 1 := constantI S_ 1 1#1
  let main_v39 : IVec S_ 1 := (fun x v => Host.reduce IntOp.andi x v reducesTo_S524288_S_d0 h_S_) main_v38 main_c_15
  let main_v40 : IVec S_ 1 := andi main_v36 main_v39
  main_v40

def fn_part1 {F : FTy → Type} [FloatOps F] (main_arg1 : IVec S524288 32) (main_arg2 : IVec S524288 32) (main_arg3 : IVec S524288 32) (main_arg7 : FVec F S256x256 .f32) (main_arg8 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg7
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg8
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_c_10 : IVec S_ 32 := constantI S_ 32 0#32
  let main_v29 : IVec S524288 32 := broadcastInDim S524288 ![] bcast_S_S524288 main_c_10
  let main_v30 : IVec S524288 1 := cmpi .sge main_arg1 main_v29
  let main_c_11 : IVec S_ 1 := constantI S_ 1 1#1
  let main_v31 : IVec S_ 1 := (fun x v => Host.reduce IntOp.andi x v reducesTo_S524288_S_d0 h_S_) main_v30 main_c_11
  let main_v32 : IVec S_ 1 := andi main_v28 main_v31
  let main_c_12 : IVec S_ 32 := constantI S_ 32 0#32
  fn_part2 (F := F) main_arg2 main_arg3 main_v32 main_c_12

def fn {F : FTy → Type} [FloatOps F] (main_arg0 : FVec F S1024x256 .f32) (main_arg1 : IVec S524288 32) (main_arg2 : IVec S524288 32) (main_arg3 : IVec S524288 32) (main_arg4 : FVec F S13x256 .f32) (main_arg5 : FVec F S512x256 .f32) (main_arg6 : FVec F S256 .f32) (main_arg7 : FVec F S256x256 .f32) (main_arg8 : FVec F S256 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S13x256 .f32 := Host.absf main_arg4
  let main_cst_0 : FVec F S_ .f32 := constant S_ .f32 0x7F800000#32
  let main_v5 : FVec F S13x256 .f32 := broadcastInDim S13x256 ![] bcast_S_S13x256 main_cst_0
  let main_v6 : IVec S13x256 1 := cmpf .olt main_v4 main_v5
  let main_c_1 : IVec S_ 1 := constantI S_ 1 1#1
  let main_v7 : IVec S_ 1 := (fun x v => Host.reduce IntOp.andi x v reducesTo_S13x256_S_d0_1 h_S_) main_v6 main_c_1
  let main_v8 : IVec S_ 1 := andi main_v3 main_v7
  let main_v9 : FVec F S512x256 .f32 := Host.absf main_arg5
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg6
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg2 main_arg3 main_arg7 main_arg8 main_v13 main_v16
-- ==== Kernel.lean ====
abbrev S1024x256 : Shape := ⟨2, ![1024, 256]⟩
abbrev S524288 : Shape := ⟨1, ![524288]⟩
abbrev S13x256 : Shape := ⟨2, ![13, 256]⟩
abbrev S512x256 : Shape := ⟨2, ![512, 256]⟩
abbrev S256 : Shape := ⟨1, ![256]⟩
abbrev S256x256 : Shape := ⟨2, ![256, 256]⟩
abbrev S_ : Shape := ⟨0, ![]⟩
abbrev S1x524288 : Shape := ⟨2, ![1, 524288]⟩
abbrev S16x256 : Shape := ⟨2, ![16, 256]⟩
abbrev S1x4096 : Shape := ⟨2, ![1, 4096]⟩
abbrev S8x256 : Shape := ⟨2, ![8, 256]⟩
abbrev S1024x1 : Shape := ⟨2, ![1024, 1]⟩
abbrev S13x1 : Shape := ⟨2, ![13, 1]⟩
abbrev S1024x4096 : Shape := ⟨2, ![1024, 4096]⟩
abbrev S13x4096 : Shape := ⟨2, ![13, 4096]⟩
abbrev S4096x256 : Shape := ⟨2, ![4096, 256]⟩
abbrev S1x256 : Shape := ⟨2, ![1, 256]⟩
abbrev S2x8x256 : Shape := ⟨3, ![2, 8, 256]⟩
abbrev S2x1x256 : Shape := ⟨3, ![2, 1, 256]⟩
abbrev S2x256 : Shape := ⟨2, ![2, 256]⟩

abbrev nBuf : Space → Nat
  | .hbm => 56
  | .vmem => 11
  | .smem => 0
  | _ => 0

abbrev bufTy : (tb : Table) → Fin (tcTables nBuf tb) → BufTy
  | .hbm, ⟨0, _⟩ => ⟨S1024x256, .f32⟩
  | .hbm, ⟨1, _⟩ => ⟨S524288, .i32⟩
  | .hbm, ⟨2, _⟩ => ⟨S524288, .i32⟩
  | .hbm, ⟨3, _⟩ => ⟨S524288, .i32⟩
  | .hbm, ⟨4, _⟩ => ⟨S13x256, .f32⟩
  | .hbm, ⟨5, _⟩ => ⟨S512x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S524288, .i32⟩
  | .hbm, ⟨13, _⟩ => ⟨S524288, .i32⟩
  | .hbm, ⟨14, _⟩ => ⟨S_, .i32⟩
  | .hbm, ⟨15, _⟩ => ⟨S524288, .i32⟩
  | .hbm, ⟨16, _⟩ => ⟨S524288, .i32⟩
  | .hbm, ⟨17, _⟩ => ⟨S1x524288, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S524288, .i32⟩
  | .hbm, ⟨22, _⟩ => ⟨S524288, .i32⟩
  | .hbm, ⟨23, _⟩ => ⟨S_, .i32⟩
  | .hbm, ⟨24, _⟩ => ⟨S524288, .i32⟩
  | .hbm, ⟨25, _⟩ => ⟨S524288, .i32⟩
  | .hbm, ⟨26, _⟩ => ⟨S1x524288, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S524288, .i32⟩
  | .hbm, ⟨31, _⟩ => ⟨S524288, .i32⟩
  | .hbm, ⟨32, _⟩ => ⟨S_, .i32⟩
  | .hbm, ⟨33, _⟩ => ⟨S524288, .i32⟩
  | .hbm, ⟨34, _⟩ => ⟨S524288, .i32⟩
  | .hbm, ⟨35, _⟩ => ⟨S1x524288, .i32⟩
  | .hbm, ⟨36, _⟩ => ⟨S256x256, .f32⟩
  | .hbm, ⟨37, _⟩ => ⟨S256x256, .f32⟩
  | .hbm, ⟨38, _⟩ => ⟨S256x256, .f32⟩
  | .hbm, ⟨39, _⟩ => ⟨S1024x256, .f32⟩
  | .hbm, ⟨40, _⟩ => ⟨S1024x256, .bf16⟩
  | .hbm, ⟨41, _⟩ => ⟨S13x256, .f32⟩
  | .hbm, ⟨42, _⟩ => ⟨S13x256, .bf16⟩
  | .hbm, ⟨43, _⟩ => ⟨S16x256, .f32⟩
  | .hbm, ⟨44, _⟩ => ⟨S2x8x256, .f32⟩
  | .hbm, ⟨45, _⟩ => ⟨S2x1x256, .f32⟩
  | .hbm, ⟨46, _⟩ => ⟨S2x256, .f32⟩
  | .hbm, ⟨47, _⟩ => ⟨S_, .f32⟩
  | .hbm, ⟨48, _⟩ => ⟨S256, .f32⟩
  | .hbm, ⟨49, _⟩ => ⟨S1x256, .f32⟩
  | .hbm, ⟨50, _⟩ => ⟨S1x256, .f32⟩
  | .hbm, ⟨51, _⟩ => ⟨S_, .f32⟩
  | .hbm, ⟨52, _⟩ => ⟨S256, .f32⟩
  | .hbm, ⟨53, _⟩ => ⟨S256, .f32⟩
  | .hbm, ⟨54, _⟩ => ⟨S1x256, .f32⟩
  | .hbm, ⟨55, _⟩ => ⟨S1x256, .f32⟩
  | .local _ .vmem, ⟨0, _⟩ => ⟨S1x4096, .i32⟩
  | .local _ .vmem, ⟨1, _⟩ => ⟨S1x4096, .i32⟩
  | .local _ .vmem, ⟨2, _⟩ => ⟨S1x4096, .i32⟩
  | .local _ .vmem, ⟨3, _⟩ => ⟨S1x4096, .i32⟩
  | .local _ .vmem, ⟨4, _⟩ => ⟨S1x4096, .i32⟩
  | .local _ .vmem, ⟨5, _⟩ => ⟨S1x4096, .i32⟩
  | .local _ .vmem, ⟨6, _⟩ => ⟨S1024x256, .bf16⟩
  | .local _ .vmem, ⟨7, _⟩ => ⟨S13x256, .bf16⟩
  | .local _ .vmem, ⟨8, _⟩ => ⟨S256, .f32⟩
  | .local _ .vmem, ⟨9, _⟩ => ⟨S8x256, .f32⟩
  | .local _ .vmem, ⟨10, _⟩ => ⟨S8x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v0 : Ref sig .tc := ⟨.hbm, 16, rfl⟩
abbrev main_v1 : Ref sig .tc := ⟨.hbm, 17, rfl⟩
abbrev main_c_1 : Ref sig .tc := ⟨.hbm, 18, rfl⟩
abbrev main_c_2 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v2 : Ref sig .tc := ⟨.hbm, 25, rfl⟩
abbrev main_v3 : Ref sig .tc := ⟨.hbm, 26, rfl⟩
abbrev main_c_3 : Ref sig .tc := ⟨.hbm, 27, rfl⟩
abbrev main_c_4 : Ref sig .tc := ⟨.hbm, 28, rfl⟩
abbrev main_call2_v0 : Ref sig .tc := ⟨.hbm, 29, rfl⟩
abbrev main_call2_v1 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_cst : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst_5 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S13x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bcast_S_S524288 : S_.BroadcastsInDim S524288 (![] : Fin 0 → Fin S524288.rank)
  shapeCasts_S524288_S1x524288 : S524288.ShapeCasts S1x524288
  slices_S512x256_S256x256_0_0 : S512x256.Slices ![0, 0] S256x256
  slices_S512x256_S256x256_256_0 : S512x256.Slices ![256, 0] S256x256
  bitsLt_bf16_f32 : FTy.bits .bf16 < FTy.bits .f32
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  iota_S1024x1_d0_w32 : S1024x1.Iotas .tc 32 [0]
  iota_S13x1_d0_w32 : S13x1.Iotas .tc 32 [0]
  broadcasts_S1024x1_S1024x4096 : S1024x1.Broadcasts S1024x4096
  broadcasts_S1x4096_S1024x4096 : S1x4096.Broadcasts S1024x4096
  natLt_1_32 : 1 < 32
  broadcasts_S13x1_S13x4096 : S13x1.Broadcasts S13x4096
  broadcasts_S1x4096_S13x4096 : S1x4096.Broadcasts S13x4096
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S13x256_S13x256_0_0 : ∀ a, (![0, 0] : Fin 2 → Nat) a + S13x256.size a ≤ S13x256.size a
  h_S13x256 : 0 < S13x256.numel
  shapeCasts_S13x256_S13x256 : S13x256.ShapeCasts S13x256
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  reduces_S4096x256_S256 : S4096x256.Reduces [0] S256
  inb_S8x256_S8x256_0_0 : ∀ a, (![0, 0] : Fin 2 → Nat) a + S8x256.size a ≤ S8x256.size a
  h_S8x256 : 0 < S8x256.numel
  inb_S8x256_S1x256_0_0 : ∀ a, (![0, 0] : Fin 2 → Nat) a + S1x256.size a ≤ S8x256.size a
  h_S1x256 : 0 < S1x256.numel
  shapeCasts_S1x256_S1x256 : S1x256.ShapeCasts S1x256
  shapeCasts_S16x256_S2x8x256 : S16x256.ShapeCasts S2x8x256
  slices_S2x8x256_S2x1x256_0_0_0 : S2x8x256.Slices ![0, 0, 0] S2x1x256
  shapeCasts_S2x1x256_S2x256 : S2x1x256.ShapeCasts S2x256
  reducesTo_S2x256_S256_d0 : S2x256.ReducesTo [0] S256
  h_S_ : 0 < S_.numel
  bcast_S256_S1x256_1 : S256.BroadcastsInDim S1x256 (![1] : Fin 1 → Fin S1x256.rank)
  bcast_S_S256 : S_.BroadcastsInDim S256 (![] : Fin 0 → Fin S256.rank)
  dot_S1024x256_S256x256_S1024x256_1_0_0_1_n_n_wf : DotDims.WF S1024x256 S256x256 S1024x256 [1] [0] [0] [1] [] []
  dot_S13x256_S256x256_S13x256_1_0_0_1_n_n_wf : DotDims.WF S13x256 S256x256 S13x256 [1] [0] [0] [1] [] []
  dot_S1024x4096_S1024x256_S4096x256_0_0_1_1_n_n_wf : DotDims.WF S1024x4096 S1024x256 S4096x256 [0] [0] [1] [1] [] []
  dot_S13x4096_S13x256_S4096x256_0_0_1_1_n_n_wf : DotDims.WF S13x4096 S13x256 S4096x256 [0] [0] [1] [1] [] []
  dot_S1x256_S256x256_S1x256_1_0_0_1_n_n_wf : DotDims.WF S1x256 S256x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096.size a ≤ S1x524288.size a
  hwx0_0 : ∀ i : grid0.Coords, EltTy.bits .i32 = 32 ∨ (Rect.block (s := S1x524288) S1x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x524288.size a
  hwx0_1 : ∀ i : grid0.Coords, EltTy.bits .i32 = 32 ∨ (Rect.block (s := S1x524288) S1x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x524288.size a
  hwx0_2 : ∀ i : grid0.Coords, EltTy.bits .i32 = 32 ∨ (Rect.block (s := S1x524288) S1x4096.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x256.size a
  hwx0_3 : ∀ i : grid0.Coords, EltTy.bits .bf16 = 32 ∨ (Rect.block (s := S1024x256) S1024x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S13x256.size a ≤ S13x256.size a
  hwx0_4 : ∀ i : grid0.Coords, EltTy.bits .bf16 = 32 ∨ (Rect.block (s := S13x256) S13x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x256.size a ≤ S16x256.size a
  hwx0_6 : ∀ i : grid0.Coords, EltTy.bits .f32 = 32 ∨ (Rect.block (s := S16x256) S8x256.size (cc0_transform_6 i) (hinb0_6 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S13x256_S256x256_S13x256_1_0_0_1_n_n : DotDims S13x256 S256x256 S13x256 where
  lhsContracting := [1]
  rhsContracting := [0]
  lhsNonContracting := [0]
  rhsNonContracting := [1]
  lhsBatch := []
  rhsBatch := []
  wf := dot_S13x256_S256x256_S13x256_1_0_0_1_n_n_wf
def dot_S1024x4096_S1024x256_S4096x256_0_0_1_1_n_n : DotDims S1024x4096 S1024x256 S4096x256 where
  lhsContracting := [0]
  rhsContracting := [0]
  lhsNonContracting := [1]
  rhsNonContracting := [1]
  lhsBatch := []
  rhsBatch := []
  wf := dot_S1024x4096_S1024x256_S4096x256_0_0_1_1_n_n_wf
def dot_S13x4096_S13x256_S4096x256_0_0_1_1_n_n : DotDims S13x4096 S13x256 S4096x256 where
  lhsContracting := [0]
  rhsContracting := [0]
  lhsNonContracting := [1]
  rhsNonContracting := [1]
  lhsBatch := []
  rhsBatch := []
  wf := dot_S13x4096_S13x256_S4096x256_0_0_1_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf

abbrev win0_0 : Pipeline.Window sig grid0 :=
  Pipeline.Window.ofSpec (Memref.whole main_v1) S1x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S13x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S8x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1024x256 : Shape := ⟨2, ![1024, 256]⟩
abbrev S524288 : Shape := ⟨1, ![524288]⟩
abbrev S13x256 : Shape := ⟨2, ![13, 256]⟩
abbrev S512x256 : Shape := ⟨2, ![512, 256]⟩
abbrev S256 : Shape := ⟨1, ![256]⟩
abbrev S256x256 : Shape := ⟨2, ![256, 256]⟩
abbrev S_ : Shape := ⟨0, ![]⟩
abbrev S524288x1 : Shape := ⟨2, ![524288, 1]⟩
abbrev S524288x256 : Shape := ⟨2, ![524288, 256]⟩
abbrev S524288x512 : Shape := ⟨2, ![524288, 512]⟩
abbrev S1x256 : Shape := ⟨2, ![1, 256]⟩

abbrev nBuf : Space → Nat
  | .hbm => 59
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S524288, .i32⟩
  | .hbm, ⟨2, _⟩ => ⟨S524288, .i32⟩
  | .hbm, ⟨3, _⟩ => ⟨S524288, .i32⟩
  | .hbm, ⟨4, _⟩ => ⟨S13x256, .f32⟩
  | .hbm, ⟨5, _⟩ => ⟨S512x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S_, .i32⟩
  | .hbm, ⟨10, _⟩ => ⟨S524288, .i32⟩
  | .hbm, ⟨11, _⟩ => ⟨S524288, .i1⟩
  | .hbm, ⟨12, _⟩ => ⟨S_, .i32⟩
  | .hbm, ⟨13, _⟩ => ⟨S524288, .i32⟩
  | .hbm, ⟨14, _⟩ => ⟨S524288, .i32⟩
  | .hbm, ⟨15, _⟩ => ⟨S524288, .i32⟩
  | .hbm, ⟨16, _⟩ => ⟨S524288x1, .i32⟩
  | .hbm, ⟨17, _⟩ => ⟨S524288x256, .f32⟩
  | .hbm, ⟨18, _⟩ => ⟨S_, .i32⟩
  | .hbm, ⟨19, _⟩ => ⟨S524288, .i32⟩
  | .hbm, ⟨20, _⟩ => ⟨S524288, .i1⟩
  | .hbm, ⟨21, _⟩ => ⟨S_, .i32⟩
  | .hbm, ⟨22, _⟩ => ⟨S524288, .i32⟩
  | .hbm, ⟨23, _⟩ => ⟨S524288, .i32⟩
  | .hbm, ⟨24, _⟩ => ⟨S524288, .i32⟩
  | .hbm, ⟨25, _⟩ => ⟨S524288x1, .i32⟩
  | .hbm, ⟨26, _⟩ => ⟨S524288x256, .f32⟩
  | .hbm, ⟨27, _⟩ => ⟨S_, .i32⟩
  | .hbm, ⟨28, _⟩ => ⟨S524288, .i32⟩
  | .hbm, ⟨29, _⟩ => ⟨S524288, .i1⟩
  | .hbm, ⟨30, _⟩ => ⟨S_, .i32⟩
  | .hbm, ⟨31, _⟩ => ⟨S524288, .i32⟩
  | .hbm, ⟨32, _⟩ => ⟨S524288, .i32⟩
  | .hbm, ⟨33, _⟩ => ⟨S524288, .i32⟩
  | .hbm, ⟨34, _⟩ => ⟨S524288x1, .i32⟩
  | .hbm, ⟨35, _⟩ => ⟨S524288x256, .f32⟩
  | .hbm, ⟨36, _⟩ => ⟨S524288x256, .f32⟩
  | .hbm, ⟨37, _⟩ => ⟨S524288x256, .f32⟩
  | .hbm, ⟨38, _⟩ => ⟨S524288x512, .f32⟩
  | .hbm, ⟨39, _⟩ => ⟨S524288x256, .f32⟩
  | .hbm, ⟨40, _⟩ => ⟨S1x256, .f32⟩
  | .hbm, ⟨41, _⟩ => ⟨S524288x256, .f32⟩
  | .hbm, ⟨42, _⟩ => ⟨S524288x256, .f32⟩
  | .hbm, ⟨43, _⟩ => ⟨S524288x256, .f32⟩
  | .hbm, ⟨44, _⟩ => ⟨S524288x256, .f32⟩
  | .hbm, ⟨45, _⟩ => ⟨S_, .f32⟩
  | .hbm, ⟨46, _⟩ => ⟨S524288x256, .f32⟩
  | .hbm, ⟨47, _⟩ => ⟨S524288x256, .f32⟩
  | .hbm, ⟨48, _⟩ => ⟨S_, .f32⟩
  | .hbm, ⟨49, _⟩ => ⟨S524288x256, .f32⟩
  | .hbm, ⟨50, _⟩ => ⟨S524288x256, .f32⟩
  | .hbm, ⟨51, _⟩ => ⟨S524288x256, .f32⟩
  | .hbm, ⟨52, _⟩ => ⟨S524288x256, .f32⟩
  | .hbm, ⟨53, _⟩ => ⟨S1x256, .f32⟩
  | .hbm, ⟨54, _⟩ => ⟨S524288x256, .f32⟩
  | .hbm, ⟨55, _⟩ => ⟨S524288x256, .f32⟩
  | .hbm, ⟨56, _⟩ => ⟨S_, .f32⟩
  | .hbm, ⟨57, _⟩ => ⟨S256, .f32⟩
  | .hbm, ⟨58, _⟩ => ⟨S1x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst : Ref sig .tc := ⟨.hbm, 56, rfl⟩
abbrev main_v33 : Ref sig .tc := ⟨.hbm, 57, rfl⟩
abbrev main_v34 : Ref sig .tc := ⟨.hbm, 58, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  concatenates_S524288x256_S524288x256_S524288x512_d1 : Shape.Concatenates [S524288x256, S524288x256] S524288x512 1
  bcast_S256_S1x256_1 : S256.BroadcastsInDim S1x256 (![1] : Fin 1 → Fin S1x256.rank)
  bcast_S1x256_S524288x256_0_1 : S1x256.BroadcastsInDim S524288x256 (![0, 1] : Fin 2 → Fin S524288x256.rank)
  bcast_S_S524288x256 : S_.BroadcastsInDim S524288x256 (![] : Fin 0 → Fin S524288x256.rank)
  reducesTo_S524288x256_S256_d0 : S524288x256.ReducesTo [0] S256
  h_S_ : 0 < S_.numel
  gather_S13x256_S524288x1_S524288x256_1_0_n_n_0_1_1256_wf : GatherDims.WF S13x256 S524288x1 S524288x256 [1] [0] [] [0] [] 1 ![1, 256]
  gather_S1024x256_S524288x1_S524288x256_1_0_n_n_0_1_1256_wf : GatherDims.WF S1024x256 S524288x1 S524288x256 [1] [0] [] [0] [] 1 ![1, 256]
  dot_S524288x512_S512x256_S524288x256_1_0_0_1_n_n_wf : DotDims.WF S524288x512 S512x256 S524288x256 [1] [0] [0] [1] [] []
  dot_S524288x256_S256x256_S524288x256_1_0_0_1_n_n_wf : DotDims.WF S524288x256 S256x256 S524288x256 [1] [0] [0] [1] [] []

variable [Facts₀]

def gather_S13x256_S524288x1_S524288x256_1_0_n_n_0_1_1256 : GatherDims S13x256 S524288x1 S524288x256 where
  offsetDims := [1]
  collapsedSliceDims := [0]
  operandBatchingDims := []
  startIndicesBatchingDims := []
  startIndexMap := [0]
  indexVectorDim := 1
  sliceSizes := ![1, 256]
  wf := gather_S13x256_S524288x1_S524288x256_1_0_n_n_0_1_1256_wf
def gather_S1024x256_S524288x1_S524288x256_1_0_n_n_0_1_1256 : GatherDims S1024x256 S524288x1 S524288x256 where
  offsetDims := [1]
  collapsedSliceDims := [0]
  operandBatchingDims := []
  startIndicesBatchingDims := []
  startIndexMap := [0]
  indexVectorDim := 1
  sliceSizes := ![1, 256]
  wf := gather_S1024x256_S524288x1_S524288x256_1_0_n_n_0_1_1256_wf
def dot_S524288x512_S512x256_S524288x256_1_0_0_1_n_n : DotDims S524288x512 S512x256 S524288x256 where
  lhsContracting := [1]
  rhsContracting := [0]
  lhsNonContracting := [0]
  rhsNonContracting := [1]
  lhsBatch := []
  rhsBatch := []
  wf := dot_S524288x512_S512x256_S524288x256_1_0_0_1_n_n_wf
def dot_S524288x256_S256x256_S524288x256_1_0_0_1_n_n : DotDims S524288x256 S256x256 S524288x256 where
  lhsContracting := [1]
  rhsContracting := [0]
  lhsNonContracting := [0]
  rhsNonContracting := [1]
  lhsBatch := []
  rhsBatch := []
  wf := dot_S524288x256_S256x256_S524288x256_1_0_0_1_n_n_wf

class Facts : Prop extends Facts₀ where

variable [Facts]
-- ==== Proof.Spec.lean ====
/-
  The two programs' results as explicit formulas, with no program imported.

  Inputs, as functions of plain coordinates: the slot table `cs` (1024 × 256), the relation table `re` (13 × 256),
  the first layer `W1` (512 × 256) and `b1`, the second layer `W2` (256 × 256) and `b2`, and three index words per
  interaction `ia`, `ib`, `ir` (524288 interactions).

  * The kernel side (`resK`): the indices are clipped into their tables; a row is selected by a sum against a
    one-hot column (`oneHot`); the first layer is folded into the tables (`csProj`, `relProj`); the activations are
    summed per tile of 4096 interactions, per core over 64 tiles, over the two cores; the second layer is applied once to
    the summed activations, and `b2` is counted 524288 times by one product.
  * The reference side (`resR`): a negative index is wrapped by the table's length and the gather clamps it (`rowR`);
    per interaction the concatenated row (`comb`) goes through both layers, and the 524288 rows are summed.

  `silu x = x · (1 / (1 + e⁻ˣ))` is one function on both sides.
-/
import Idealize.ShloMosaic.PureOps.Ideal
import Mathlib.Algebra.BigOperators.Fin

noncomputable section

namespace Cert.Interact

open Idealize.ShloMosaic

/-! ## Index words -/

/-- An index word clipped into `[0, hi]` (signed): first raised to `0`, then lowered to `hi`. -/
def clipW (hi w : BitVec 32) : BitVec 32 := IntOp.minsi hi (IntOp.maxsi 0#32 w)

/-- A negative index word wrapped once by the table's length `n`. -/
def wrapW (n w : BitVec 32) : BitVec 32 := if w.slt 0#32 then w + n else w

/-- The row a gather of a table of `N` rows reads at the start word `w`: the word as a signed integer, clamped into
    `[0, N − 1]`. -/
def clampRow (N : ℕ) (hN : 0 < N) (w : BitVec 32) : Fin N := ⟨min w.toInt.toNat (N - 1), by omega⟩

/-- The reference's row of a table of `N` rows at index word `w`: wrapped, then clamped. -/
def rowR (N : ℕ) (hN : 0 < N) (w : BitVec 32) : Fin N := clampRow N hN (wrapW (BitVec.ofNat 32 N) w)

/-- The one-hot entry: `1` where row `k`'s word is the index word, else `0`. -/
def oneHot (k : ℕ) (w : BitVec 32) : EReal := if BitVec.ofNat 32 k = w then 1 else 0

/-- `silu x = x · logistic x`, on the extended reals. -/
def silu (x : EReal) : EReal := x * Ideal.logistic x

/-- The position of interaction `q` of tile `p` (4096 interactions a tile, 128 tiles). -/
def tileIdx (p : Fin 128) (q : Fin 4096) : Fin 524288 := ⟨p.val * 4096 + q.val, by have := p.isLt; have := q.isLt; omega⟩

/-- Tile `t` of core `c` (64 tiles a core). -/
def coreTile (c : Fin 2) (t : Fin 64) : Fin 128 := ⟨c.val * 64 + t.val, by have := c.isLt; have := t.isLt; omega⟩

/-- The upper and lower halves of `W1`'s rows. -/
def lo (j : Fin 256) : Fin 512 := ⟨j.val, by have := j.isLt; omega⟩
def hi (j : Fin 256) : Fin 512 := ⟨256 + j.val, by have := j.isLt; omega⟩

section
variable (cs : Fin 1024 → Fin 256 → EReal) (re : Fin 13 → Fin 256 → EReal) (W1 : Fin 512 → Fin 256 → EReal)
  (b1 : Fin 256 → EReal) (W2 : Fin 256 → Fin 256 → EReal) (b2 : Fin 256 → EReal) (ia ib ir : Fin 524288 → BitVec 32)

/-! ## The kernel side -/

/-- The slot table through the upper half of the first layer. -/
def csProj (k : Fin 1024) (e : Fin 256) : EReal := ∑ j : Fin 256, cs k j * W1 (lo j) e

/-- The relation table through the sum of both halves of the first layer. -/
def relProj (k : Fin 13) (e : Fin 256) : EReal := ∑ j : Fin 256, re k j * (W1 (hi j) e + W1 (lo j) e)

/-- The pre-activation of interaction `n`: the two slot rows by one sum against the added one-hot columns, the
    relation row by a one-hot sum, and the bias. -/
def hpreK (n : Fin 524288) (e : Fin 256) : EReal :=
  ((∑ k : Fin 1024, (oneHot k.val (clipW 1023#32 (ia n)) + oneHot k.val (clipW 1023#32 (ib n))) * csProj cs W1 k e)
    + ∑ k : Fin 13, oneHot k.val (clipW 12#32 (ir n)) * relProj re W1 k e) + b1 e

/-- A tile's summed activations. -/
def tileK (p : Fin 128) (e : Fin 256) : EReal := ∑ q : Fin 4096, silu (hpreK cs re W1 b1 ia ib ir (tileIdx p q) e)

/-- A core's summed activations: its 64 tiles, in grid order. -/
def coreK (c : Fin 2) (e : Fin 256) : EReal := ∑ t ∈ Finset.range 64, if h : t < 64 then tileK cs re W1 b1 ia ib ir (coreTile c ⟨t, h⟩) e else 0

/-- The kernel side's result. `nLit` is the value of the literal that counts `b2`. -/
def resK (nLit : EReal) (d : Fin 256) : EReal :=
  (∑ e : Fin 256, (∑ c : Fin 2, coreK cs re W1 b1 ia ib ir c e) * W2 e d) + nLit * b2 d

/-! ## The reference side -/

/-- The concatenated row of interaction `n`: the pair's sum plus the relation row, then the relation row. -/
def comb (n : Fin 524288) (j : Fin 512) : EReal :=
  if h : j.val < 256 then
    (cs (rowR 1024 (by decide) (ia n)) ⟨j.val, h⟩ + cs (rowR 1024 (by decide) (ib n)) ⟨j.val, h⟩) + re (rowR 13 (by decide) (ir n)) ⟨j.val, h⟩
  else re (rowR 13 (by decide) (ir n)) ⟨j.val - 256, by have := j.isLt; omega⟩

def hpreR (n : Fin 524288) (e : Fin 256) : EReal := (∑ j : Fin 512, comb cs re ia ib ir n j * W1 j e) + b1 e

/-- The reference side's result. -/
def resR (d : Fin 256) : EReal :=
  ∑ n : Fin 524288, ((∑ e : Fin 256, silu (hpreR cs re W1 b1 ia ib ir n e) * W2 e d) + b2 d)

end

end Cert.Interact

end
-- ==== Proof.RealSpec.lean ====
/-
  The same two formulas over the real numbers: what the extended-real formulas of the specification become when
  every table entry is a real number. `silu' x = x · (1 + e⁻ˣ)⁻¹`.
-/
import proofs.«413298_j60790967107676_3_alg».proof.Proof.Spec
import Mathlib.Analysis.SpecialFunctions.Exp

noncomputable section

namespace Cert.Interact

/-- The one-hot entry as a real number. -/
def oneHot' (k : ℕ) (w : BitVec 32) : ℝ := if BitVec.ofNat 32 k = w then 1 else 0

/-- `silu` on the reals. -/
def silu' (x : ℝ) : ℝ := x * (1 + Real.exp (-x))⁻¹

section
variable (cs : Fin 1024 → Fin 256 → ℝ) (re : Fin 13 → Fin 256 → ℝ) (W1 : Fin 512 → Fin 256 → ℝ)
  (b1 : Fin 256 → ℝ) (W2 : Fin 256 → Fin 256 → ℝ) (b2 : Fin 256 → ℝ) (ia ib ir : Fin 524288 → BitVec 32)

def csProj' (k : Fin 1024) (e : Fin 256) : ℝ := ∑ j : Fin 256, cs k j * W1 (lo j) e

def relProj' (k : Fin 13) (e : Fin 256) : ℝ := ∑ j : Fin 256, re k j * (W1 (hi j) e + W1 (lo j) e)

def hpreK' (n : Fin 524288) (e : Fin 256) : ℝ :=
  ((∑ k : Fin 1024, (oneHot' k.val (clipW 1023#32 (ia n)) + oneHot' k.val (clipW 1023#32 (ib n))) * csProj' cs W1 k e)
    + ∑ k : Fin 13, oneHot' k.val (clipW 12#32 (ir n)) * relProj' re W1 k e) + b1 e

def tileK' (p : Fin 128) (e : Fin 256) : ℝ := ∑ q : Fin 4096, silu' (hpreK' cs re W1 b1 ia ib ir (tileIdx p q) e)

def coreK' (c : Fin 2) (e : Fin 256) : ℝ := ∑ t ∈ Finset.range 64, if h : t < 64 then tileK' cs re W1 b1 ia ib ir (coreTile c ⟨t, h⟩) e else 0

def resK' (nLit : ℝ) (d : Fin 256) : ℝ :=
  (∑ e : Fin 256, (∑ c : Fin 2, coreK' cs re W1 b1 ia ib ir c e) * W2 e d) + nLit * b2 d

def comb' (n : Fin 524288) (j : Fin 512) : ℝ :=
  if h : j.val < 256 then
    (cs (rowR 1024 (by decide) (ia n)) ⟨j.val, h⟩ + cs (rowR 1024 (by decide) (ib n)) ⟨j.val, h⟩) + re (rowR 13 (by decide) (ir n)) ⟨j.val, h⟩
  else re (rowR 13 (by decide) (ir n)) ⟨j.val - 256, by have := j.isLt; omega⟩

def hpreR' (n : Fin 524288) (e : Fin 256) : ℝ := (∑ j : Fin 512, comb' cs re ia ib ir n j * W1 j e) + b1 e

def resR' (d : Fin 256) : ℝ :=
  ∑ n : Fin 524288, ((∑ e : Fin 256, silu' (hpreR' cs re W1 b1 ia ib ir n e) * W2 e d) + b2 d)

end

end Cert.Interact

end
-- ==== Proof.RealBridge.lean ====
/-
  Over the reals the two formulas are equal when no index word is negative.
-/
import proofs.«413298_j60790967107676_3_alg».proof.Proof.RealSpec

noncomputable section

namespace Cert.Interact

open Idealize.ShloMosaic

/-!
  The steps of the proof.

  * Index words. A non-negative word is not wrapped, and clipping it into `[0, N − 1]` gives the word of the row the
    gather clamps to, `min w (N − 1)`. Hence a sum against the one-hot column of the clipped word selects that row.
  * One interaction. The sum over the 512 rows of the first layer splits into its lower and upper 256; the
    concatenated row is the pair's sum plus the relation row below and the relation row above, so the folded tables
    give the same pre-activation.
  * The outer sums. `n = (c · 64 + t) · 4096 + q` numbers the 524288 interactions by core, tile and position; the sum
    over interactions commutes with the second layer, and the constant `b2 d` summed 524288 times is the product.
-/

namespace RealBridge

/-! ## Index words -/

theorem slt_zero_of_nonneg (w : BitVec 32) (hw : 0 ≤ w.toInt) : w.slt 0#32 = false := by
  simp [BitVec.slt, hw]

theorem wrapW_of_nonneg (n w : BitVec 32) (hw : 0 ≤ w.toInt) : wrapW n w = w := by
  unfold wrapW
  rw [slt_zero_of_nonneg w hw]
  simp

theorem toInt_eq_toNat_of_nonneg (w : BitVec 32) (hw : 0 ≤ w.toInt) : w.toInt = (w.toNat : Int) := by
  have h := BitVec.toInt_eq_toNat_cond w
  have hlt := w.isLt
  split at h <;> omega

theorem clipW_1024 (w : BitVec 32) (hw : 0 ≤ w.toInt) :
    clipW 1023#32 w = BitVec.ofNat 32 (rowR 1024 (by decide) w).val := by
  unfold rowR clampRow
  rw [wrapW_of_nonneg _ _ hw]
  unfold clipW IntOp.minsi IntOp.maxsi
  rw [slt_zero_of_nonneg w hw]
  have hn := toInt_eq_toNat_of_nonneg w hw
  have hlt := w.isLt
  simp only [Bool.false_eq_true, if_false]
  by_cases h : (1023#32).slt w = true
  · rw [if_pos h]
    have h' : (1023 : Int) < w.toInt := by simpa [BitVec.slt] using h
    apply BitVec.eq_of_toNat_eq
    simp only [BitVec.toNat_ofNat]
    omega
  · rw [if_neg h]
    have h' : ¬ (1023 : Int) < w.toInt := by simpa [BitVec.slt] using h
    apply BitVec.eq_of_toNat_eq
    simp only [BitVec.toNat_ofNat]
    omega

theorem clipW_13 (w : BitVec 32) (hw : 0 ≤ w.toInt) :
    clipW 12#32 w = BitVec.ofNat 32 (rowR 13 (by decide) w).val := by
  unfold rowR clampRow
  rw [wrapW_of_nonneg _ _ hw]
  unfold clipW IntOp.minsi IntOp.maxsi
  rw [slt_zero_of_nonneg w hw]
  have hn := toInt_eq_toNat_of_nonneg w hw
  have hlt := w.isLt
  simp only [Bool.false_eq_true, if_false]
  by_cases h : (12#32).slt w = true
  · rw [if_pos h]
    have h' : (12 : Int) < w.toInt := by simpa [BitVec.slt] using h
    apply BitVec.eq_of_toNat_eq
    simp only [BitVec.toNat_ofNat]
    omega
  · rw [if_neg h]
    have h' : ¬ (12 : Int) < w.toInt := by simpa [BitVec.slt] using h
    apply BitVec.eq_of_toNat_eq
    simp only [BitVec.toNat_ofNat]
    omega

/-! ## One-hot sums -/

theorem oneHot'_ofNat (k r : ℕ) (hk : k < 4294967296) (hr : r < 4294967296) :
    oneHot' k (BitVec.ofNat 32 r) = if k = r then 1 else 0 := by
  unfold oneHot'
  by_cases h : k = r
  · subst h; simp
  · rw [if_neg h, if_neg]
    intro h'
    apply h
    have h2 := congrArg BitVec.toNat h'
    simp only [BitVec.toNat_ofNat] at h2
    omega

theorem sum_oneHot_ofNat (N : ℕ) (hN : N ≤ 4294967296) (r : Fin N) (f : Fin N → ℝ) :
    ∑ k : Fin N, oneHot' k.val (BitVec.ofNat 32 r.val) * f k = f r := by
  rw [Finset.sum_eq_single r]
  · rw [oneHot'_ofNat _ _ (by have := r.isLt; omega) (by have := r.isLt; omega), if_pos rfl, one_mul]
  · intro k _ hk
    rw [oneHot'_ofNat _ _ (by have := k.isLt; omega) (by have := r.isLt; omega), if_neg, zero_mul]
    intro h
    exact hk (Fin.ext h)
  · intro h
    exact absurd (Finset.mem_univ _) h

theorem sum_oneHot_1024 (w : BitVec 32) (hw : 0 ≤ w.toInt) (f : Fin 1024 → ℝ) :
    ∑ k : Fin 1024, oneHot' k.val (clipW 1023#32 w) * f k = f (rowR 1024 (by decide) w) := by
  rw [clipW_1024 w hw]
  exact sum_oneHot_ofNat 1024 (by omega) _ f

theorem sum_oneHot_13 (w : BitVec 32) (hw : 0 ≤ w.toInt) (f : Fin 13 → ℝ) :
    ∑ k : Fin 13, oneHot' k.val (clipW 12#32 w) * f k = f (rowR 13 (by decide) w) := by
  rw [clipW_13 w hw]
  exact sum_oneHot_ofNat 13 (by omega) _ f

theorem sum_two_oneHot_1024 (a b : BitVec 32) (ha : 0 ≤ a.toInt) (hb : 0 ≤ b.toInt) (f : Fin 1024 → ℝ) :
    ∑ k : Fin 1024, (oneHot' k.val (clipW 1023#32 a) + oneHot' k.val (clipW 1023#32 b)) * f k
      = f (rowR 1024 (by decide) a) + f (rowR 1024 (by decide) b) := by
  simp only [add_mul]
  rw [Finset.sum_add_distrib, sum_oneHot_1024 a ha, sum_oneHot_1024 b hb]

/-! ## One interaction -/

theorem sum_fin512 (g : Fin 512 → ℝ) :
    ∑ j : Fin 512, g j = ∑ j : Fin 256, g (lo j) + ∑ j : Fin 256, g (hi j) :=
  Fin.sum_univ_add (a := 256) (b := 256) g

section
variable (cs : Fin 1024 → Fin 256 → ℝ) (re : Fin 13 → Fin 256 → ℝ) (W1 : Fin 512 → Fin 256 → ℝ)
  (b1 : Fin 256 → ℝ) (W2 : Fin 256 → Fin 256 → ℝ) (b2 : Fin 256 → ℝ) (ia ib ir : Fin 524288 → BitVec 32)

theorem comb'_lo (n : Fin 524288) (j : Fin 256) :
    comb' cs re ia ib ir n (lo j)
      = (cs (rowR 1024 (by decide) (ia n)) j + cs (rowR 1024 (by decide) (ib n)) j) + re (rowR 13 (by decide) (ir n)) j := by
  unfold comb'
  rw [dif_pos (show (lo j).val < 256 from j.isLt)]
  rfl

theorem comb'_hi (n : Fin 524288) (j : Fin 256) :
    comb' cs re ia ib ir n (hi j) = re (rowR 13 (by decide) (ir n)) j := by
  unfold comb'
  have hj := j.isLt
  rw [dif_neg (show ¬ (hi j).val < 256 by show ¬ (256 + j.val < 256); omega)]
  congr 1
  apply Fin.ext
  show 256 + j.val - 256 = j.val
  omega

theorem hpre_eq (ha : ∀ n, 0 ≤ (ia n).toInt) (hb : ∀ n, 0 ≤ (ib n).toInt) (hr : ∀ n, 0 ≤ (ir n).toInt)
    (n : Fin 524288) (e : Fin 256) :
    hpreK' cs re W1 b1 ia ib ir n e = hpreR' cs re W1 b1 ia ib ir n e := by
  unfold hpreK' hpreR'
  rw [sum_two_oneHot_1024 (ia n) (ib n) (ha n) (hb n), sum_oneHot_13 (ir n) (hr n), sum_fin512]
  simp only [comb'_lo, comb'_hi]
  unfold csProj' relProj'
  simp only [mul_add, add_mul, Finset.sum_add_distrib]
  ring

end

/-! ## The outer sums -/

/-- Tiles and positions inside a tile number the interactions: `n = p · 4096 + q`. -/
def tileEquiv : Fin 128 × Fin 4096 ≃ Fin 524288 where
  toFun x := tileIdx x.1 x.2
  invFun n := (⟨n.val / 4096, by have := n.isLt; omega⟩, ⟨n.val % 4096, by omega⟩)
  left_inv := by
    rintro ⟨⟨p, hp⟩, ⟨q, hq⟩⟩
    apply Prod.ext
    · apply Fin.ext
      show (p * 4096 + q) / 4096 = p
      omega
    · apply Fin.ext
      show (p * 4096 + q) % 4096 = q
      omega
  right_inv := by
    rintro ⟨n, hn⟩
    apply Fin.ext
    show n / 4096 * 4096 + n % 4096 = n
    omega

/-- Cores and tiles of a core number the tiles: `p = c · 64 + t`. -/
def coreEquiv : Fin 2 × Fin 64 ≃ Fin 128 where
  toFun x := coreTile x.1 x.2
  invFun p := (⟨p.val / 64, by have := p.isLt; omega⟩, ⟨p.val % 64, by omega⟩)
  left_inv := by
    rintro ⟨⟨c, hc⟩, ⟨t, ht⟩⟩
    apply Prod.ext
    · apply Fin.ext
      show (c * 64 + t) / 64 = c
      omega
    · apply Fin.ext
      show (c * 64 + t) % 64 = t
      omega
  right_inv := by
    rintro ⟨p, hp⟩
    apply Fin.ext
    show p / 64 * 64 + p % 64 = p
    omega

theorem sum_tiles (F : Fin 524288 → ℝ) :
    ∑ p : Fin 128, ∑ q : Fin 4096, F (tileIdx p q) = ∑ n : Fin 524288, F n := by
  rw [← Fintype.sum_prod_type' (f := fun p q => F (tileIdx p q))]
  exact Equiv.sum_comp tileEquiv F

theorem sum_cores (G : Fin 128 → ℝ) :
    ∑ c : Fin 2, ∑ t : Fin 64, G (coreTile c t) = ∑ p : Fin 128, G p := by
  rw [← Fintype.sum_prod_type' (f := fun c t => G (coreTile c t))]
  exact Equiv.sum_comp coreEquiv G

section
variable (cs : Fin 1024 → Fin 256 → ℝ) (re : Fin 13 → Fin 256 → ℝ) (W1 : Fin 512 → Fin 256 → ℝ)
  (b1 : Fin 256 → ℝ) (W2 : Fin 256 → Fin 256 → ℝ) (b2 : Fin 256 → ℝ) (ia ib ir : Fin 524288 → BitVec 32)

/-- A core's sum over the range of its tile numbers is the sum over its tiles. -/
theorem coreK'_eq (c : Fin 2) (e : Fin 256) :
    coreK' cs re W1 b1 ia ib ir c e = ∑ t : Fin 64, tileK' cs re W1 b1 ia ib ir (coreTile c t) e := by
  unfold coreK'
  rw [Finset.sum_range]
  apply Finset.sum_congr rfl
  intro t _
  exact dif_pos t.isLt

/-- The activations summed by tiles, cores and then over the two cores are the activations summed over all
    interactions. -/
theorem act_sum (e : Fin 256) :
    ∑ c : Fin 2, coreK' cs re W1 b1 ia ib ir c e
      = ∑ n : Fin 524288, silu' (hpreK' cs re W1 b1 ia ib ir n e) := by
  calc ∑ c : Fin 2, coreK' cs re W1 b1 ia ib ir c e
      = ∑ c : Fin 2, ∑ t : Fin 64, tileK' cs re W1 b1 ia ib ir (coreTile c t) e := by
        apply Finset.sum_congr rfl
        intro c _
        exact coreK'_eq cs re W1 b1 ia ib ir c e
    _ = ∑ p : Fin 128, tileK' cs re W1 b1 ia ib ir p e :=
        sum_cores (fun p => tileK' cs re W1 b1 ia ib ir p e)
    _ = ∑ n : Fin 524288, silu' (hpreK' cs re W1 b1 ia ib ir n e) :=
        sum_tiles (fun n => silu' (hpreK' cs re W1 b1 ia ib ir n e))

end

end RealBridge

open RealBridge in
/-- The two formulas over the reals agree when every index word is non-negative as a signed integer. -/
theorem real_bridge (cs : Fin 1024 → Fin 256 → ℝ) (re : Fin 13 → Fin 256 → ℝ) (W1 : Fin 512 → Fin 256 → ℝ)
    (b1 : Fin 256 → ℝ) (W2 : Fin 256 → Fin 256 → ℝ) (b2 : Fin 256 → ℝ) (ia ib ir : Fin 524288 → BitVec 32)
    (ha : ∀ n, 0 ≤ (ia n).toInt) (hb : ∀ n, 0 ≤ (ib n).toInt) (hr : ∀ n, 0 ≤ (ir n).toInt) (d : Fin 256) :
    resK' cs re W1 b1 W2 b2 ia ib ir 524288 d = resR' cs re W1 b1 W2 b2 ia ib ir d := by
  unfold resK' resR'
  rw [Finset.sum_add_distrib, Finset.sum_comm]
  simp only [Finset.sum_const, Finset.card_univ, Fintype.card_fin, nsmul_eq_mul, Nat.cast_ofNat]
  rw [add_left_inj]
  apply Finset.sum_congr rfl
  intro e _
  rw [← Finset.sum_mul, act_sum]
  refine congrArg (· * W2 e d) ?_
  apply Finset.sum_congr rfl
  intro n _
  rw [hpre_eq cs re W1 b1 ia ib ir ha hb hr n e]

end Cert.Interact

end
-- ==== Proof.Lift.lean ====
/-
  With real table entries the extended-real formulas are the coercions of the real ones.

  The coercion ℝ → EReal commutes with finite sums, with products and sums of two terms, with the one-hot entry and
  with `silu` (at a real argument the logistic function is the real `(1 + e⁻ˣ)⁻¹`). Each definition of the
  specification is therefore, at coerced tables, the coercion of its real counterpart; the lemmas follow the
  definitions' order, innermost first.
-/
import proofs.«413298_j60790967107676_3_alg».proof.Proof.RealSpec

noncomputable section

namespace Cert.Interact

open Idealize.ShloMosaic

/-- The coercion of a finite sum of reals is the sum of the coercions. -/
theorem coe_finset_sum {ι : Type} (s : Finset ι) (f : ι → ℝ) :
    ((∑ i ∈ s, f i : ℝ) : EReal) = ∑ i ∈ s, ((f i : ℝ) : EReal) := by
  classical
  induction s using Finset.induction_on with
  | empty => rw [Finset.sum_empty, Finset.sum_empty, EReal.coe_zero]
  | insert a s ha ih => rw [Finset.sum_insert ha, Finset.sum_insert ha, EReal.coe_add, ih]

/-- The one-hot entry is the coercion of the real one-hot entry. -/
theorem oneHot_coe (k : ℕ) (w : BitVec 32) : oneHot k w = ((oneHot' k w : ℝ) : EReal) := by
  unfold oneHot oneHot'
  split_ifs
  · exact EReal.coe_one.symm
  · exact EReal.coe_zero.symm

/-- `silu` at a real argument is the coercion of the real `silu'`. -/
theorem silu_coe (x : ℝ) : silu ((x : ℝ) : EReal) = ((silu' x : ℝ) : EReal) := by
  rw [silu, silu', Ideal.logistic_coe, ← EReal.coe_mul]

section
variable (cs : Fin 1024 → Fin 256 → ℝ) (re : Fin 13 → Fin 256 → ℝ) (W1 : Fin 512 → Fin 256 → ℝ)
  (b1 : Fin 256 → ℝ) (W2 : Fin 256 → Fin 256 → ℝ) (b2 : Fin 256 → ℝ) (ia ib ir : Fin 524288 → BitVec 32)

/-! ## The kernel side -/

theorem csProj_coe (k : Fin 1024) (e : Fin 256) :
    csProj (fun k j => ((cs k j : ℝ) : EReal)) (fun k j => ((W1 k j : ℝ) : EReal)) k e
    = ((csProj' cs W1 k e : ℝ) : EReal) := by
  simp only [csProj, csProj', coe_finset_sum, EReal.coe_mul]

theorem relProj_coe (k : Fin 13) (e : Fin 256) :
    relProj (fun k j => ((re k j : ℝ) : EReal)) (fun k j => ((W1 k j : ℝ) : EReal)) k e
    = ((relProj' re W1 k e : ℝ) : EReal) := by
  simp only [relProj, relProj', coe_finset_sum, EReal.coe_mul, EReal.coe_add]

theorem hpreK_coe (n : Fin 524288) (e : Fin 256) :
    hpreK (fun k j => ((cs k j : ℝ) : EReal)) (fun k j => ((re k j : ℝ) : EReal)) (fun k j => ((W1 k j : ℝ) : EReal))
      (fun e => ((b1 e : ℝ) : EReal)) ia ib ir n e
    = ((hpreK' cs re W1 b1 ia ib ir n e : ℝ) : EReal) := by
  simp only [hpreK, hpreK', coe_finset_sum, EReal.coe_mul, EReal.coe_add, csProj_coe, relProj_coe, oneHot_coe]

theorem tileK_coe (p : Fin 128) (e : Fin 256) :
    tileK (fun k j => ((cs k j : ℝ) : EReal)) (fun k j => ((re k j : ℝ) : EReal)) (fun k j => ((W1 k j : ℝ) : EReal))
      (fun e => ((b1 e : ℝ) : EReal)) ia ib ir p e
    = ((tileK' cs re W1 b1 ia ib ir p e : ℝ) : EReal) := by
  simp only [tileK, tileK', coe_finset_sum, hpreK_coe, silu_coe]

theorem coreK_coe (c : Fin 2) (e : Fin 256) :
    coreK (fun k j => ((cs k j : ℝ) : EReal)) (fun k j => ((re k j : ℝ) : EReal)) (fun k j => ((W1 k j : ℝ) : EReal))
      (fun e => ((b1 e : ℝ) : EReal)) ia ib ir c e
    = ((coreK' cs re W1 b1 ia ib ir c e : ℝ) : EReal) := by
  rw [coreK, coreK', coe_finset_sum]
  refine Finset.sum_congr rfl (fun t ht => ?_)
  have h : t < 64 := Finset.mem_range.mp ht
  rw [dif_pos h, dif_pos h, tileK_coe]

/-- The kernel side's formula at real entries is the real formula. -/
theorem resK_coe (nLit : ℝ) (d : Fin 256) :
    resK (fun k j => ((cs k j : ℝ) : EReal)) (fun k j => ((re k j : ℝ) : EReal)) (fun k j => ((W1 k j : ℝ) : EReal))
      (fun e => ((b1 e : ℝ) : EReal)) (fun k j => ((W2 k j : ℝ) : EReal)) (fun e => ((b2 e : ℝ) : EReal)) ia ib ir
      ((nLit : ℝ) : EReal) d
    = ((resK' cs re W1 b1 W2 b2 ia ib ir nLit d : ℝ) : EReal) := by
  simp only [resK, resK', coe_finset_sum, EReal.coe_mul, EReal.coe_add, coreK_coe]

/-! ## The reference side -/

theorem comb_coe (n : Fin 524288) (j : Fin 512) :
    comb (fun k j => ((cs k j : ℝ) : EReal)) (fun k j => ((re k j : ℝ) : EReal)) ia ib ir n j
    = ((comb' cs re ia ib ir n j : ℝ) : EReal) := by
  unfold comb comb'
  by_cases h : j.val < 256
  · rw [dif_pos h, dif_pos h, EReal.coe_add, EReal.coe_add]
  · rw [dif_neg h, dif_neg h]

theorem hpreR_coe (n : Fin 524288) (e : Fin 256) :
    hpreR (fun k j => ((cs k j : ℝ) : EReal)) (fun k j => ((re k j : ℝ) : EReal)) (fun k j => ((W1 k j : ℝ) : EReal))
      (fun e => ((b1 e : ℝ) : EReal)) ia ib ir n e
    = ((hpreR' cs re W1 b1 ia ib ir n e : ℝ) : EReal) := by
  simp only [hpreR, hpreR', coe_finset_sum, EReal.coe_mul, EReal.coe_add, comb_coe]

/-- The reference side's formula at real entries is the real formula. -/
theorem resR_coe (d : Fin 256) :
    resR (fun k j => ((cs k j : ℝ) : EReal)) (fun k j => ((re k j : ℝ) : EReal)) (fun k j => ((W1 k j : ℝ) : EReal))
      (fun e => ((b1 e : ℝ) : EReal)) (fun k j => ((W2 k j : ℝ) : EReal)) (fun e => ((b2 e : ℝ) : EReal)) ia ib ir d
    = ((resR' cs re W1 b1 W2 b2 ia ib ir d : ℝ) : EReal) := by
  simp only [resR, resR', coe_finset_sum, EReal.coe_mul, EReal.coe_add, hpreR_coe, silu_coe]

end

end Cert.Interact

end
-- ==== Proof.Bridge.lean ====
/-
  The two extended-real formulas are equal when every table entry is a real number and no index word is negative.
-/
import proofs.«413298_j60790967107676_3_alg».proof.Proof.RealBridge
import proofs.«413298_j60790967107676_3_alg».proof.Proof.Lift

noncomputable section

namespace Cert.Interact

/-- The bridge: finite tables, non-negative index words. -/
theorem bridge (cs : Fin 1024 → Fin 256 → EReal) (re : Fin 13 → Fin 256 → EReal) (W1 : Fin 512 → Fin 256 → EReal)
    (b1 : Fin 256 → EReal) (W2 : Fin 256 → Fin 256 → EReal) (b2 : Fin 256 → EReal) (ia ib ir : Fin 524288 → BitVec 32)
    (hcs : ∀ k j, ∃ r : ℝ, cs k j = (r : EReal)) (hre : ∀ k j, ∃ r : ℝ, re k j = (r : EReal))
    (hW1 : ∀ k j, ∃ r : ℝ, W1 k j = (r : EReal)) (hb1 : ∀ e, ∃ r : ℝ, b1 e = (r : EReal))
    (hW2 : ∀ k j, ∃ r : ℝ, W2 k j = (r : EReal)) (hb2 : ∀ e, ∃ r : ℝ, b2 e = (r : EReal))
    (ha : ∀ n, 0 ≤ (ia n).toInt) (hb : ∀ n, 0 ≤ (ib n).toInt) (hr : ∀ n, 0 ≤ (ir n).toInt) (d : Fin 256) :
    resK cs re W1 b1 W2 b2 ia ib ir ((524288 : ℝ) : EReal) d = resR cs re W1 b1 W2 b2 ia ib ir d := by
  choose cs' hcs' using hcs
  choose re' hre' using hre
  choose W1' hW1' using hW1
  choose b1' hb1' using hb1
  choose W2' hW2' using hW2
  choose b2' hb2' using hb2
  obtain rfl : cs = fun k j => ((cs' k j : ℝ) : EReal) := funext fun k => funext fun j => hcs' k j
  obtain rfl : re = fun k j => ((re' k j : ℝ) : EReal) := funext fun k => funext fun j => hre' k j
  obtain rfl : W1 = fun k j => ((W1' k j : ℝ) : EReal) := funext fun k => funext fun j => hW1' k j
  obtain rfl : b1 = fun e => ((b1' e : ℝ) : EReal) := funext fun e => hb1' e
  obtain rfl : W2 = fun k j => ((W2' k j : ℝ) : EReal) := funext fun k => funext fun j => hW2' k j
  obtain rfl : b2 = fun e => ((b2' e : ℝ) : EReal) := funext fun e => hb2' e
  rw [resK_coe, resR_coe, real_bridge cs' re' W1' b1' W2' b2' ia ib ir ha hb hr d]

end Cert.Interact

end
-- ==== Proof.Tables.lean ====
/-
  The specification read at the programs' arrays: an array of shape [R, C] as a function of its row and column, an
  array of shape [N] as a function of its position, and the two results as arrays of shape [1, 256].
-/
import proofs.«413298_j60790967107676_3_alg».proof.Proof.Bridge
import Idealize.ShloMosaic.Lib.ValueIdx

noncomputable section

namespace Cert.Interact

open Idealize.ShloMosaic Idealize.ShloMosaic.ValueIdx

/-- A rank-2 array as a function of row and column. -/
def tab2 {α : Type} {R C : ℕ} (x : (⟨2, ![R, C]⟩ : Shape).Idx → α) (k : Fin R) (j : Fin C) : α := x (ix2 k j)

/-- A rank-1 array as a function of position. -/
def tab1 {α : Type} {N : ℕ} (x : (⟨1, ![N]⟩ : Shape).Idx → α) (n : Fin N) : α := x (ix1 n)

/-- The column of an index of a [1, 256] array. -/
def col (i : (⟨2, ![1, 256]⟩ : Shape).Idx) : Fin 256 := ⟨(i 1).val, idx2_lt1 i⟩

section
variable (cs : (⟨2, ![1024, 256]⟩ : Shape).Idx → EReal) (ia ib ir : (⟨1, ![524288]⟩ : Shape).Idx → BitVec 32)
  (re : (⟨2, ![13, 256]⟩ : Shape).Idx → EReal) (W1 : (⟨2, ![512, 256]⟩ : Shape).Idx → EReal)
  (b1 : (⟨1, ![256]⟩ : Shape).Idx → EReal) (W2 : (⟨2, ![256, 256]⟩ : Shape).Idx → EReal) (b2 : (⟨1, ![256]⟩ : Shape).Idx → EReal)

/-- The kernel side's result array, of the nine argument arrays in the programs' argument order. -/
def resKAt (i : (⟨2, ![1, 256]⟩ : Shape).Idx) : EReal :=
  resK (tab2 cs) (tab2 re) (tab2 W1) (tab1 b1) (tab2 W2) (tab1 b2) (tab1 ia) (tab1 ib) (tab1 ir) ((524288 : ℝ) : EReal) (col i)

/-- The reference side's result array. -/
def resRAt (i : (⟨2, ![1, 256]⟩ : Shape).Idx) : EReal :=
  resR (tab2 cs) (tab2 re) (tab2 W1) (tab1 b1) (tab2 W2) (tab1 b2) (tab1 ia) (tab1 ib) (tab1 ir) (col i)

/-- With finite tables and non-negative index words the two result arrays are equal. -/
theorem resKAt_eq_resRAt (hcs : ∀ i, ∃ r : ℝ, cs i = (r : EReal)) (hre : ∀ i, ∃ r : ℝ, re i = (r : EReal))
    (hW1 : ∀ i, ∃ r : ℝ, W1 i = (r : EReal)) (hb1 : ∀ i, ∃ r : ℝ, b1 i = (r : EReal))
    (hW2 : ∀ i, ∃ r : ℝ, W2 i = (r : EReal)) (hb2 : ∀ i, ∃ r : ℝ, b2 i = (r : EReal))
    (ha : ∀ n, 0 ≤ (ia n).toInt) (hb : ∀ n, 0 ≤ (ib n).toInt) (hr : ∀ n, 0 ≤ (ir n).toInt) :
    resKAt cs ia ib ir re W1 b1 W2 b2 = resRAt cs ia ib ir re W1 b1 W2 b2 :=
  funext fun i => bridge _ _ _ _ _ _ _ _ _ (fun k j => hcs _) (fun k j => hre _) (fun k j => hW1 _) (fun e => hb1 _)
    (fun k j => hW2 _) (fun e => hb2 _) (fun n => ha _) (fun n => hb _) (fun n => hr _) (col i)

end

end Cert.Interact

end
-- ==== Proof.KerPoint.lean ====
/-
  One grid point of the kernel, as values: the tile's column sums (the body's arithmetic, read at a column), and what
  the body leaves in row 0 of the output block in each of its two cases.
-/
import proofs.«413298_j60790967107676_3_alg».proof.Proof.Tables
import proofs.«413298_j60790967107676_3_alg».proof.Proof.Gen.KernelIdeal.Frame
import Idealize.ShloMosaic.Lib.Pipeline.Value
import Idealize.ShloMosaic.Lib.ValueLayout
import Idealize.ShloMosaic.Lib.WritesUnit
import Idealize.ShloMosaic.PureOps.Ideal.Laws
import Idealize.ShloMosaic.Lib.Tactic

noncomputable section

namespace Cert.KernelIdeal.Point

open Idealize.ShloMosaic Idealize.ShloMosaic.TcCoe Idealize.SL.Sem Idealize.ShloMosaic.ValueIdx
open Cert.KernelIdeal Cert.KernelIdeal.Gen Cert.Interact

/-- The tile's column sums from the six loaded blocks: per interaction `q` of the tile the two slot rows by the added
    one-hot columns against the projected slot table `x3`, the relation row by a one-hot column against the projected
    relation table `x4`, the bias `x5`, through `silu`, summed over the tile's 4096 interactions. -/
def tileOf (x0 x1 x2 : S1x4096.Idx → BitVec 32) (x3 : S1024x256.Idx → EReal) (x4 : S13x256.Idx → EReal)
    (x5 : S256.Idx → EReal) (e : Fin 256) : EReal :=
  ∑ q : Fin 4096, silu (((∑ k : Fin 1024, (oneHot k.val (x0 (ix2 0 q)) + oneHot k.val (x1 (ix2 0 q))) * x3 (ix2 k e))
    + ∑ k : Fin 13, oneHot k.val (x2 (ix2 0 q)) * x4 (ix2 k e)) + x5 (ix1 e))

/-! ## The body's arithmetic at an index -/

/-- The conversion of a comparison's bit widened to a word: `1` where the two words are equal, `0` where they differ. -/
theorem bit_val (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · have hb : IntOp.cmpi .eq a b = 1#1 := by simp [IntOp.cmpi, h]
    rw [hb, if_pos h, show ((1#1 : BitVec 1).setWidth 32).toInt = 1 from by decide]
    simp
  · have hb : IntOp.cmpi .eq a b = 0#1 := by
      show BitVec.ofBool (a == b) = 0#1
      rw [show (a == b) = false from beq_eq_false_iff_ne.mpr h]
      rfl
    rw [hb, if_neg h, show ((0#1 : BitVec 1).setWidth 32).toInt = 0 from by decide]
    simp

/-- The one-hot matrix of an index row against the row numbers of a table of `n` rows, at row `k` and interaction `q`:
    the row number is broadcast along the interactions, the index row along the rows, and the comparison's bit is converted. -/
theorem hot_apply {n : ℕ} (hi : (⟨2, ![n, 1]⟩ : Shape).Iotas .tc 32 [0])
    (hb1 : (⟨2, ![n, 1]⟩ : Shape).Broadcasts ⟨2, ![n, 4096]⟩) (hb2 : (⟨2, ![1, 4096]⟩ : Shape).Broadcasts ⟨2, ![n, 4096]⟩)
    (idx : IVec ⟨2, ![1, 4096]⟩ 32) (h1 : 1 < 32) (hb : FTy.bits .bf16 < FTy.bits .f32) (k : Fin n) (q : Fin 4096) :
    (truncf .bf16 (sitofp .f32 (extui 32 (cmpi .eq (broadcastTo ⟨2, ![n, 4096]⟩ (iota .tc ⟨2, ![n, 1]⟩ 32 [0] hi) hb1)
      (broadcastTo ⟨2, ![n, 4096]⟩ idx hb2)) h1)) hb : FVec Ideal ⟨2, ![n, 4096]⟩ .bf16) (ix2 k q)
      = oneHot k.val (idx (ix2 0 q)) := by
  show FloatOps.sitofp (F := Ideal) .f32 ((IntOp.cmpi .eq (broadcastTo ⟨2, ![n, 4096]⟩ (iota .tc ⟨2, ![n, 1]⟩ 32 [0] hi) hb1 (ix2 k q))
      (broadcastTo ⟨2, ![n, 4096]⟩ idx hb2 (ix2 k q))).setWidth 32) = _
  rw [bit_val, broadcastTo_1b_ab_apply idx hb2 k q,
    broadcastTo_apply (iota .tc ⟨2, ![n, 1]⟩ 32 [0] hi) hb1 (ix2 k q) (ix2 k (0 : Fin 1)) (fun a => by
      match a with
      | ⟨0, _⟩ =>
        show k.val = if n = 1 then 0 else k.val
        split
        · have := k.isLt; omega
        · rfl
      | ⟨1, _⟩ => rfl),
    iota_single_apply]
  rfl

/-! The operand indices of the two products, axis by axis: each contracts axis 0 of both operands, so at result index
    `(q, e)` and contraction position `k` the left operand is read at `(k, q)` and the right one at `(k, e)`. -/

theorem lhsA_0 (i : S4096x256.Idx) (q : dot_S1024x4096_S1024x256_S4096x256_0_0_1_1_n_n.contr.Idx) :
    (dot_S1024x4096_S1024x256_S4096x256_0_0_1_1_n_n.lhsIdx i q 0).val = (q ⟨0, by decide⟩).val :=
  dot_S1024x4096_S1024x256_S4096x256_0_0_1_1_n_n.lhsIdx_val_of_single rfl i q
theorem lhsA_1 (i : S4096x256.Idx) (q : dot_S1024x4096_S1024x256_S4096x256_0_0_1_1_n_n.contr.Idx) :
    (dot_S1024x4096_S1024x256_S4096x256_0_0_1_1_n_n.lhsIdx i q 1).val = (i 0).val := by
  unfold DotDims.lhsIdx
  rw [dif_neg (show ¬(1 : Fin S1024x4096.rank) ∈ dot_S1024x4096_S1024x256_S4096x256_0_0_1_1_n_n.lhsBatch by decide), dif_pos (show (1 : Fin S1024x4096.rank) ∈ dot_S1024x4096_S1024x256_S4096x256_0_0_1_1_n_n.lhsNonContracting by decide)]
  rfl
theorem rhsA_0 (i : S4096x256.Idx) (q : dot_S1024x4096_S1024x256_S4096x256_0_0_1_1_n_n.contr.Idx) :
    (dot_S1024x4096_S1024x256_S4096x256_0_0_1_1_n_n.rhsIdx i q 0).val = (q ⟨0, by decide⟩).val :=
  dot_S1024x4096_S1024x256_S4096x256_0_0_1_1_n_n.rhsIdx_val_of_single rfl i q
theorem rhsA_1 (i : S4096x256.Idx) (q : dot_S1024x4096_S1024x256_S4096x256_0_0_1_1_n_n.contr.Idx) :
    (dot_S1024x4096_S1024x256_S4096x256_0_0_1_1_n_n.rhsIdx i q 1).val = (i 1).val := by
  unfold DotDims.rhsIdx
  rw [dif_neg (show ¬(1 : Fin S1024x256.rank) ∈ dot_S1024x4096_S1024x256_S4096x256_0_0_1_1_n_n.rhsBatch by decide), dif_pos (show (1 : Fin S1024x256.rank) ∈ dot_S1024x4096_S1024x256_S4096x256_0_0_1_1_n_n.rhsNonContracting by decide)]
  rfl

theorem lhsB_0 (i : S4096x256.Idx) (q : dot_S13x4096_S13x256_S4096x256_0_0_1_1_n_n.contr.Idx) :
    (dot_S13x4096_S13x256_S4096x256_0_0_1_1_n_n.lhsIdx i q 0).val = (q ⟨0, by decide⟩).val :=
  dot_S13x4096_S13x256_S4096x256_0_0_1_1_n_n.lhsIdx_val_of_single rfl i q
theorem lhsB_1 (i : S4096x256.Idx) (q : dot_S13x4096_S13x256_S4096x256_0_0_1_1_n_n.contr.Idx) :
    (dot_S13x4096_S13x256_S4096x256_0_0_1_1_n_n.lhsIdx i q 1).val = (i 0).val := by
  unfold DotDims.lhsIdx
  rw [dif_neg (show ¬(1 : Fin S13x4096.rank) ∈ dot_S13x4096_S13x256_S4096x256_0_0_1_1_n_n.lhsBatch by decide), dif_pos (show (1 : Fin S13x4096.rank) ∈ dot_S13x4096_S13x256_S4096x256_0_0_1_1_n_n.lhsNonContracting by decide)]
  rfl
theorem rhsB_0 (i : S4096x256.Idx) (q : dot_S13x4096_S13x256_S4096x256_0_0_1_1_n_n.contr.Idx) :
    (dot_S13x4096_S13x256_S4096x256_0_0_1_1_n_n.rhsIdx i q 0).val = (q ⟨0, by decide⟩).val :=
  dot_S13x4096_S13x256_S4096x256_0_0_1_1_n_n.rhsIdx_val_of_single rfl i q
theorem rhsB_1 (i : S4096x256.Idx) (q : dot_S13x4096_S13x256_S4096x256_0_0_1_1_n_n.contr.Idx) :
    (dot_S13x4096_S13x256_S4096x256_0_0_1_1_n_n.rhsIdx i q 1).val = (i 1).val := by
  unfold DotDims.rhsIdx
  rw [dif_neg (show ¬(1 : Fin S13x256.rank) ∈ dot_S13x4096_S13x256_S4096x256_0_0_1_1_n_n.rhsBatch by decide), dif_pos (show (1 : Fin S13x256.rank) ∈ dot_S13x4096_S13x256_S4096x256_0_0_1_1_n_n.rhsNonContracting by decide)]
  rfl

/-- The product against the projected slot table: both operands are contracted along their rows, so the result at
    interaction `q` and column `e` sums over the 1024 rows. -/
theorem mmA_apply (lhs : FVec Ideal S1024x4096 .bf16) (rhs : FVec Ideal S1024x256 .bf16) (q : Fin 4096) (e : Fin 256) :
    matmul (F := Ideal) dot_S1024x4096_S1024x256_S4096x256_0_0_1_1_n_n none lhs rhs (constant S4096x256 .f32 0x00000000#32) (ix2 q e)
      = ∑ k : Fin 1024, lhs (ix2 k q) * rhs (ix2 k e) := by
  refine (Ideal.matmul_constant_zero_apply dot_S1024x4096_S1024x256_S4096x256_0_0_1_1_n_n none lhs rhs (ix2 q e)).trans ?_
  rw [← Equiv.sum_comp (contrEquiv1 dot_S1024x4096_S1024x256_S4096x256_0_0_1_1_n_n 1024 rfl rfl).symm]
  refine Finset.sum_congr rfl fun k _ => ?_
  have hk := contrEquiv1_symm_val dot_S1024x4096_S1024x256_S4096x256_0_0_1_1_n_n 1024 rfl rfl k
  have el : dot_S1024x4096_S1024x256_S4096x256_0_0_1_1_n_n.lhsIdx (ix2 q e) ((contrEquiv1 dot_S1024x4096_S1024x256_S4096x256_0_0_1_1_n_n 1024 rfl rfl).symm k) = ix2 k q := funext fun a => Fin.ext (by
    match a with
    | ⟨0, _⟩ => exact (lhsA_0 _ _).trans hk
    | ⟨1, _⟩ => exact lhsA_1 _ _)
  have er : dot_S1024x4096_S1024x256_S4096x256_0_0_1_1_n_n.rhsIdx (ix2 q e) ((contrEquiv1 dot_S1024x4096_S1024x256_S4096x256_0_0_1_1_n_n 1024 rfl rfl).symm k) = ix2 k e := funext fun a => Fin.ext (by
    match a with
    | ⟨0, _⟩ => exact (rhsA_0 _ _).trans hk
    | ⟨1, _⟩ => exact rhsA_1 _ _)
  rw [el, er]

/-- The product against the projected relation table, likewise over its 13 rows. -/
theorem mmB_apply (lhs : FVec Ideal S13x4096 .bf16) (rhs : FVec Ideal S13x256 .bf16) (q : Fin 4096) (e : Fin 256) :
    matmul (F := Ideal) dot_S13x4096_S13x256_S4096x256_0_0_1_1_n_n none lhs rhs (constant S4096x256 .f32 0x00000000#32) (ix2 q e)
      = ∑ k : Fin 13, lhs (ix2 k q) * rhs (ix2 k e) := by
  refine (Ideal.matmul_constant_zero_apply dot_S13x4096_S13x256_S4096x256_0_0_1_1_n_n none lhs rhs (ix2 q e)).trans ?_
  rw [← Equiv.sum_comp (contrEquiv1 dot_S13x4096_S13x256_S4096x256_0_0_1_1_n_n 13 rfl rfl).symm]
  refine Finset.sum_congr rfl fun k _ => ?_
  have hk := contrEquiv1_symm_val dot_S13x4096_S13x256_S4096x256_0_0_1_1_n_n 13 rfl rfl k
  have el : dot_S13x4096_S13x256_S4096x256_0_0_1_1_n_n.lhsIdx (ix2 q e) ((contrEquiv1 dot_S13x4096_S13x256_S4096x256_0_0_1_1_n_n 13 rfl rfl).symm k) = ix2 k q := funext fun a => Fin.ext (by
    match a with
    | ⟨0, _⟩ => exact (lhsB_0 _ _).trans hk
    | ⟨1, _⟩ => exact lhsB_1 _ _)
  have er : dot_S13x4096_S13x256_S4096x256_0_0_1_1_n_n.rhsIdx (ix2 q e) ((contrEquiv1 dot_S13x4096_S13x256_S4096x256_0_0_1_1_n_n 13 rfl rfl).symm k) = ix2 k e := funext fun a => Fin.ext (by
    match a with
    | ⟨0, _⟩ => exact (rhsB_0 _ _).trans hk
    | ⟨1, _⟩ => exact rhsB_1 _ _)
  rw [el, er]

/-- The sum over the tile's 4096 interactions of a [4096, 256] block, at column `e`. -/
theorem colsum_apply (src : FVec Ideal S4096x256 .f32) (hφ : FKind.Formats .f32)
    (hacc : (0x00000000#32 : BitVec 32) = 0x00000000#32) (e : Fin 256) :
    multiReduction .add [0] S256 src 0x00000000#32 reduces_S4096x256_S256 hφ hacc (ix1 e) = ∑ q : Fin 4096, src (ix2 q e) := by
  refine (Ideal.multiReduction_add_single src 0x00000000#32 reduces_S4096x256_S256 hφ hacc (ix1 e)).trans ?_
  refine Finset.sum_congr rfl fun q _ => congrArg src ?_
  funext a
  match a with
  | ⟨0, _⟩ => rfl
  | ⟨1, _⟩ => rfl

/-- `x · logistic x` elementwise is `silu` of the element. -/
theorem silu_vec {s : Shape} (v : FVec Ideal s .f32) (i : s.Idx) : mulf v (logistic v) i = silu (v i) := rfl

/-- The body's arithmetic at column `e` of its one row. -/
theorem pay3_apply (x0 x1 x2 : Vec Ideal S1x4096 .i32) (x3 : Vec Ideal S1024x256 .bf16) (x4 : Vec Ideal S13x256 .bf16)
    (x5 : Vec Ideal S256 .f32) (e : Fin 256) :
    k0_pay3 (F := Ideal) x0 x1 x2 x3 x4 x5 (ix2 0 e) = tileOf x0 x1 x2 x3 x4 x5 e := by
  unfold k0_pay3
  dsimp only
  refine (shapeCast_a_1a_apply _ shapeCasts_S256_S1x256 0 e).trans ?_
  refine (colsum_apply _ _ _ e).trans ?_
  unfold tileOf
  refine Finset.sum_congr rfl fun q _ => ?_
  refine (silu_vec _ (ix2 q e)).trans (congrArg silu ?_)
  refine (addf_apply _ _ _).trans (congrArg₂ (· + ·) ((addf_apply _ _ _).trans (congrArg₂ (· + ·) ?_ ?_)) ?_)
  · refine (mmA_apply _ _ q e).trans (Finset.sum_congr rfl fun k _ => ?_)
    refine congrArg₂ (· * ·) ((addf_apply _ _ _).trans (congrArg₂ (· + ·) ?_ ?_)) ?_
    · refine (hot_apply _ _ _ _ _ _ k q).trans ?_
      rw [shapeCast_self]
    · refine (hot_apply _ _ _ _ _ _ k q).trans ?_
      rw [shapeCast_self]
    · rw [shapeCast_self]
  · refine (mmB_apply _ _ q e).trans (Finset.sum_congr rfl fun k _ => ?_)
    refine congrArg₂ (· * ·) ?_ ?_
    · refine (hot_apply _ _ _ _ _ _ k q).trans ?_
      rw [shapeCast_self]
    · rw [shapeCast_self]
  · refine (broadcastTo_1b_ab_apply _ broadcasts_S1x256_S4096x256 q e).trans ?_
    exact shapeCast_a_1a_apply x5 shapeCasts_S256_S1x256 0 e

/-! ## What the two cases leave in row 0 of the output block -/

/-- Zero offsets, as the constant function. -/
theorem hz2 : (![0, 0] : Fin 2 → Nat) = fun _ => 0 := funext fun a => by fin_cases a <;> rfl
theorem hz1 : (![0] : Fin 1 → Nat) = fun _ => 0 := funext fun a => by fin_cases a; rfl

/-- The stored row: the row just read plus the tile's row. -/
theorem pay2_apply (v41 : FVec Ideal S1x256 .f32) (v45 : Vec Ideal S1x256 .f32) (e : Fin 256) :
    k0_pay2 (F := Ideal) v41 v45 (ix2 0 e) = v45 (ix2 0 e) + v41 (ix2 0 e) := by
  unfold k0_pay2
  rw [shapeCast_self]
  rfl

/-- At a first point of a core the body leaves, in row 0 of the output block, zero plus the tile's column sums. -/
theorem out_A_row0 (c : Dev nD) (i : grid0.Coords) (arg2 : Memref sig .tc .vmem S1x4096 .i32) (harg2 : arg2.IsWhole)
    (arg3 : Memref sig .tc .vmem S1x4096 .i32) (harg3 : arg3.IsWhole) (arg4 : Memref sig .tc .vmem S1x4096 .i32) (harg4 : arg4.IsWhole)
    (arg5 : Memref sig .tc .vmem S1024x256 .bf16) (harg5 : arg5.IsWhole) (arg6 : Memref sig .tc .vmem S13x256 .bf16) (harg6 : arg6.IsWhole)
    (arg7 : Memref sig .tc .vmem S256 .f32) (harg7 : arg7.IsWhole) (arg8 : Memref sig .tc .vmem S8x256 .f32) (harg8 : arg8.IsWhole)
    (hc0 : cond0_0 i) (x0 x1 x2 : Vec Ideal S1x4096 .i32) (x3 : Vec Ideal S1024x256 .bf16) (x4 : Vec Ideal S13x256 .bf16)
    (x5 : Vec Ideal S256 .f32) (e : Fin 256) :
    out0_A_6 (F := Ideal) c i arg2 harg2 arg3 harg3 arg4 harg4 arg5 harg5 arg6 harg6 arg7 harg7 arg8 harg8 hc0 x0 x1 x2 x3 x4 x5 (ix2 0 e)
      = (0 : EReal) + tileOf x0 x1 x2 x3 x4 x5 e := by
  unfold out0_A_6
  unfold kernelRun0_A
  dsimp only
  refine (View.read_writes_cons_rows_of_mem VO0_6 VO0_6.junk inb_S8x256_S1x256_0_0 _ _ (ix2 0 e) (ix2 0 e) rfl rfl rfl).trans ?_
  sl_unfold_words
  refine (pay2_apply _ _ e).trans ?_
  rw [View.readCov_eq_canon', View.canon_unit_zero (S := S8x256) hz2]
  simp only [View.readAt_eq_ld, harg2.read_unread, harg3.read_unread, harg4.read_unread, harg5.read_unread, harg6.read_unread,
    harg7.read_unread, View.ld_unit_zero (S := S1x4096) hz2, View.ld_unit_zero (S := S1024x256) hz2,
    View.ld_unit_zero (S := S13x256) hz2, View.ld_unit_zero (S := S256) hz1]
  refine congrArg₂ (· + ·) ?_ (pay3_apply x0 x1 x2 x3 x4 x5 e)
  unfold k0_pay1
  exact Ideal.ofBits_zero_f32

/-- At any other point the body leaves, in row 0 of the output block, what was there plus the tile's column sums. -/
theorem out_B_row0 (c : Dev nD) (i : grid0.Coords) (arg2 : Memref sig .tc .vmem S1x4096 .i32) (harg2 : arg2.IsWhole)
    (arg3 : Memref sig .tc .vmem S1x4096 .i32) (harg3 : arg3.IsWhole) (arg4 : Memref sig .tc .vmem S1x4096 .i32) (harg4 : arg4.IsWhole)
    (arg5 : Memref sig .tc .vmem S1024x256 .bf16) (harg5 : arg5.IsWhole) (arg6 : Memref sig .tc .vmem S13x256 .bf16) (harg6 : arg6.IsWhole)
    (arg7 : Memref sig .tc .vmem S256 .f32) (harg7 : arg7.IsWhole) (arg8 : Memref sig .tc .vmem S8x256 .f32) (harg8 : arg8.IsWhole)
    (hc0 : ¬cond0_0 i) (x0 x1 x2 : Vec Ideal S1x4096 .i32) (x3 : Vec Ideal S1024x256 .bf16) (x4 : Vec Ideal S13x256 .bf16)
    (x5 : Vec Ideal S256 .f32) (xo6 : Vec Ideal S8x256 .f32) (e : Fin 256) :
    out0_B_6 (F := Ideal) c i arg2 harg2 arg3 harg3 arg4 harg4 arg5 harg5 arg6 harg6 arg7 harg7 arg8 harg8 hc0 x0 x1 x2 x3 x4 x5 xo6 (ix2 0 e)
      = xo6 (ix2 0 e) + tileOf x0 x1 x2 x3 x4 x5 e := by
  unfold out0_B_6
  unfold kernelRun0_B
  dsimp only
  refine (View.read_writes_cons_rows_of_mem arg8.view (harg8.unread xo6) inb_S8x256_S1x256_0_0 _ [] (ix2 0 e) (ix2 0 e) rfl rfl rfl).trans ?_
  sl_unfold_words
  refine (pay2_apply _ _ e).trans ?_
  simp only [View.readAt_eq_ld, harg2.read_unread, harg3.read_unread, harg4.read_unread, harg5.read_unread, harg6.read_unread,
    harg7.read_unread, harg8.read_unread, View.ld_unit_zero (S := S1x4096) hz2, View.ld_unit_zero (S := S1024x256) hz2,
    View.ld_unit_zero (S := S13x256) hz2, View.ld_unit_zero (S := S256) hz1]
  refine congrArg₂ (· + ·) (congrArg xo6 ?_) (pay3_apply x0 x1 x2 x3 x4 x5 e)
  funext a
  refine Fin.ext ?_
  match a with
  | ⟨0, _⟩ => rfl
  | ⟨1, _⟩ =>
    show (0 : ℕ) + 1 * e.val = e.val
    omega

end Cert.KernelIdeal.Point

end
-- ==== Proof.KerHead.lean ====
/-
  What the kernel's windows hold when the region is entered, read at an index: the three index arrays clipped and laid
  out as one row of 524288 columns (a tile's block is 4096 consecutive columns), the slot table through the upper half of
  the first layer, the relation table through the sum of its halves, and the bias.
-/
import proofs.«413298_j60790967107676_3_alg».proof.Proof.Tables
import proofs.«413298_j60790967107676_3_alg».proof.Proof.Gen.KernelIdeal.Frame
import Idealize.ShloMosaic.Lib.Pipeline.Value
import Idealize.ShloMosaic.Lib.ValueLayout
import Idealize.ShloMosaic.Lib.StableHlo.Run
import Idealize.ShloMosaic.Lib.StackMember
import Idealize.ShloMosaic.PureOps.Ideal.Laws
import Idealize.ShloMosaic.Lib.Tactic

noncomputable section

namespace Cert.KernelIdeal.Head

open Idealize.ShloMosaic Idealize.ShloMosaic.TcCoe Idealize.SL.Sem Idealize.ShloMosaic.ValueIdx
open Cert.KernelIdeal Cert.KernelIdeal.Gen Cert.Interact

variable (m : (ℓ : Loc nD τ sig) → Buf (Elt Ideal) ℓ)

/-! ## The grid points' block indices -/

/-- The three index windows' block at point `t` is block column `t` of the one row. -/
theorem idx012 : ∀ t : Fin grid0.N,
    (win0_0.index t (1 : Fin 2) = t.val ∧ win0_0.index t (0 : Fin 2) = 0) ∧
    (win0_1.index t (1 : Fin 2) = t.val ∧ win0_1.index t (0 : Fin 2) = 0) ∧
    (win0_2.index t (1 : Fin 2) = t.val ∧ win0_2.index t (0 : Fin 2) = 0) := by decide +kernel

/-- The two tables' and the bias's block is the whole array at every point. -/
theorem idx345 : ∀ t : Fin grid0.N,
    (win0_3.index t (0 : Fin 2) = 0 ∧ win0_3.index t (1 : Fin 2) = 0) ∧
    (win0_4.index t (0 : Fin 2) = 0 ∧ win0_4.index t (1 : Fin 2) = 0) ∧
    win0_5.index t (0 : Fin 1) = 0 := by decide +kernel

/-! ## The arrays the host operations leave for the windows -/

/-- An index array clipped into `[0, hi]` (raised to `0`, then lowered to `hi`), laid out as one row. -/
def clipRow (hi : BitVec 32) (x : S524288.Idx → BitVec 32) : S1x524288.Idx → BitVec 32 :=
  shapeCast S1x524288 (minsi (broadcastInDim S524288 ![] bcast_S_S524288 (constantI S_ 32 hi))
    (maxsi (broadcastInDim S524288 ![] bcast_S_S524288 (constantI S_ 32 0#32)) x)) shapeCasts_S524288_S1x524288

/-- The clipped row at column `n` is the clipped word of position `n`. -/
theorem clipRow_apply (hi : BitVec 32) (x : S524288.Idx → BitVec 32) (n : Fin 524288) :
    clipRow hi x (ix2 0 n) = clipW hi (tab1 x n) := by
  unfold clipRow
  refine (shapeCast_apply _ _ (ix2 0 n) (ix1 n) ?_).trans rfl
  rw [Shape.rowMajor_val_two, Shape.rowMajor_val_one]
  show n.val = 0 * 524288 + n.val
  omega

/-- The lower half of the first layer: rows `0 … 255`. -/
def w1Lo (W1 : FVec Ideal S512x256 .f32) : FVec Ideal S256x256 .f32 :=
  extractStridedSlice S256x256 ![0, 0] W1 slices_S512x256_S256x256_0_0

/-- The upper half of the first layer: rows `256 … 511`. -/
def w1Hi (W1 : FVec Ideal S512x256 .f32) : FVec Ideal S256x256 .f32 :=
  extractStridedSlice S256x256 ![256, 0] W1 slices_S512x256_S256x256_256_0

theorem w1Lo_apply (W1 : FVec Ideal S512x256 .f32) (j e : Fin 256) : w1Lo W1 (ix2 j e) = W1 (ix2 (lo j) e) := by
  unfold w1Lo
  refine extractStridedSlice_apply _ W1 _ (ix2 j e) (ix2 (lo j) e) fun a => ?_
  match a with
  | ⟨0, _⟩ => show j.val = 0 + j.val; omega
  | ⟨1, _⟩ => show e.val = 0 + e.val; omega

theorem w1Hi_apply (W1 : FVec Ideal S512x256 .f32) (j e : Fin 256) : w1Hi W1 (ix2 j e) = W1 (ix2 (hi j) e) := by
  unfold w1Hi
  refine extractStridedSlice_apply _ W1 _ (ix2 j e) (ix2 (hi j) e) fun a => ?_
  match a with
  | ⟨0, _⟩ => show 256 + j.val = 256 + j.val; rfl
  | ⟨1, _⟩ => show e.val = 0 + e.val; omega

/-- The slot table through the lower half of the first layer, as the host computes it. -/
def csArr (cs : FVec Ideal S1024x256 .f32) (W1 : FVec Ideal S512x256 .f32) : FVec Ideal S1024x256 .bf16 :=
  truncf .bf16 (Host.dotGeneral (F := Ideal) dot_S1024x256_S256x256_S1024x256_1_0_0_1_n_n none cs (w1Lo W1)) bitsLt_bf16_f32

/-- The relation table through the sum of the two halves (upper plus lower), as the host computes it. -/
def relArr (re : FVec Ideal S13x256 .f32) (W1 : FVec Ideal S512x256 .f32) : FVec Ideal S13x256 .bf16 :=
  truncf .bf16 (Host.dotGeneral (F := Ideal) dot_S13x256_S256x256_S13x256_1_0_0_1_n_n none re (addf (w1Hi W1) (w1Lo W1))) bitsLt_bf16_f32

theorem csArr_apply (cs : FVec Ideal S1024x256 .f32) (W1 : FVec Ideal S512x256 .f32) (k : Fin 1024) (e : Fin 256) :
    csArr cs W1 (ix2 k e) = csProj (tab2 cs) (tab2 W1) k e := by
  unfold csArr csProj tab2
  refine (truncf_apply (ψ := .bf16) (φ := .f32) _ bitsLt_bf16_f32 (ix2 k e)).trans ?_
  have hd : dot_S1024x256_S256x256_S1024x256_1_0_0_1_n_n = DotDims.plain 1024 256 256 := rfl
  rw [hd, StackMember.dotGeneral_plain_apply]
  exact Finset.sum_congr rfl fun j _ => by rw [w1Lo_apply]

theorem relArr_apply (re : FVec Ideal S13x256 .f32) (W1 : FVec Ideal S512x256 .f32) (k : Fin 13) (e : Fin 256) :
    relArr re W1 (ix2 k e) = relProj (tab2 re) (tab2 W1) k e := by
  unfold relArr relProj tab2
  refine (truncf_apply (ψ := .bf16) (φ := .f32) _ bitsLt_bf16_f32 (ix2 k e)).trans ?_
  have hd : dot_S13x256_S256x256_S13x256_1_0_0_1_n_n = DotDims.plain 13 256 256 := rfl
  rw [hd, StackMember.dotGeneral_plain_apply]
  exact Finset.sum_congr rfl fun j _ => by rw [addf_apply, w1Hi_apply, w1Lo_apply]

/-! ## What the region finds in the windows' arrays -/

theorem V_main_v1 (c : Dev nD) :
    (V m c main_v1 : S1x524288.Idx → BitVec 32) = clipRow 1023#32 (m ((c.tc : Thread nD τ).loc main_arg1)) := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

theorem V_main_v3 (c : Dev nD) :
    (V m c main_v3 : S1x524288.Idx → BitVec 32) = clipRow 1023#32 (m ((c.tc : Thread nD τ).loc main_arg2)) := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

theorem V_main_v5 (c : Dev nD) :
    (V m c main_v5 : S1x524288.Idx → BitVec 32) = clipRow 12#32 (m ((c.tc : Thread nD τ).loc main_arg3)) := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

theorem V_main_v10 (c : Dev nD) :
    (V m c main_v10 : S1024x256.Idx → EReal) = csArr (m ((c.tc : Thread nD τ).loc main_arg0)) (m ((c.tc : Thread nD τ).loc main_arg5)) := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

theorem V_main_v12 (c : Dev nD) :
    (V m c main_v12 : S13x256.Idx → EReal) = relArr (m ((c.tc : Thread nD τ).loc main_arg4)) (m ((c.tc : Thread nD τ).loc main_arg5)) := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-! ## The block reads: a block's coordinate is the block index times the block size plus the coordinate inside -/

theorem iblk0_read (c : Dev nD) (t : Fin cfg0.N) (q : Fin 4096) (n : Fin 524288) (hn : n.val = t.val * 4096 + q.val) :
    (iblk m c 0 t : Vec Ideal S1x4096 .i32) (ix2 0 q) = (V m c main_v1 : S1x524288.Idx → BitVec 32) (ix2 0 n) := by
  have hi := (idx012 t).1
  unfold iblk
  rw [View.read_apply]
  refine congrArg (V m c main_v1 : S1x524288.Idx → BitVec 32) ?_
  funext a
  apply Fin.ext
  match a with
  | ⟨0, _⟩ => show win0_0.index t 0 * 1 + 1 * 0 = 0; rw [hi.2]
  | ⟨1, _⟩ => show win0_0.index t 1 * 4096 + 1 * q.val = n.val; rw [hi.1, hn]; omega

theorem iblk1_read (c : Dev nD) (t : Fin cfg0.N) (q : Fin 4096) (n : Fin 524288) (hn : n.val = t.val * 4096 + q.val) :
    (iblk m c 1 t : Vec Ideal S1x4096 .i32) (ix2 0 q) = (V m c main_v3 : S1x524288.Idx → BitVec 32) (ix2 0 n) := by
  have hi := (idx012 t).2.1
  unfold iblk
  rw [View.read_apply]
  refine congrArg (V m c main_v3 : S1x524288.Idx → BitVec 32) ?_
  funext a
  apply Fin.ext
  match a with
  | ⟨0, _⟩ => show win0_1.index t 0 * 1 + 1 * 0 = 0; rw [hi.2]
  | ⟨1, _⟩ => show win0_1.index t 1 * 4096 + 1 * q.val = n.val; rw [hi.1, hn]; omega

theorem iblk2_read (c : Dev nD) (t : Fin cfg0.N) (q : Fin 4096) (n : Fin 524288) (hn : n.val = t.val * 4096 + q.val) :
    (iblk m c 2 t : Vec Ideal S1x4096 .i32) (ix2 0 q) = (V m c main_v5 : S1x524288.Idx → BitVec 32) (ix2 0 n) := by
  have hi := (idx012 t).2.2
  unfold iblk
  rw [View.read_apply]
  refine congrArg (V m c main_v5 : S1x524288.Idx → BitVec 32) ?_
  funext a
  apply Fin.ext
  match a with
  | ⟨0, _⟩ => show win0_2.index t 0 * 1 + 1 * 0 = 0; rw [hi.2]
  | ⟨1, _⟩ => show win0_2.index t 1 * 4096 + 1 * q.val = n.val; rw [hi.1, hn]; omega

theorem iblk3_read (c : Dev nD) (t : Fin cfg0.N) (k : Fin 1024) (e : Fin 256) :
    (iblk m c 3 t : Vec Ideal S1024x256 .bf16) (ix2 k e) = (V m c main_v10 : S1024x256.Idx → EReal) (ix2 k e) := by
  have hi := (idx345 t).1
  unfold iblk
  rw [View.read_apply]
  refine congrArg (V m c main_v10 : S1024x256.Idx → EReal) ?_
  funext a
  apply Fin.ext
  match a with
  | ⟨0, _⟩ => show win0_3.index t 0 * 1024 + 1 * k.val = k.val; rw [hi.1]; omega
  | ⟨1, _⟩ => show win0_3.index t 1 * 256 + 1 * e.val = e.val; rw [hi.2]; omega

theorem iblk4_read (c : Dev nD) (t : Fin cfg0.N) (k : Fin 13) (e : Fin 256) :
    (iblk m c 4 t : Vec Ideal S13x256 .bf16) (ix2 k e) = (V m c main_v12 : S13x256.Idx → EReal) (ix2 k e) := by
  have hi := (idx345 t).2.1
  unfold iblk
  rw [View.read_apply]
  refine congrArg (V m c main_v12 : S13x256.Idx → EReal) ?_
  funext a
  apply Fin.ext
  match a with
  | ⟨0, _⟩ => show win0_4.index t 0 * 13 + 1 * k.val = k.val; rw [hi.1]; omega
  | ⟨1, _⟩ => show win0_4.index t 1 * 256 + 1 * e.val = e.val; rw [hi.2]; omega

theorem iblk5_read (c : Dev nD) (t : Fin cfg0.N) (e : Fin 256) :
    (iblk m c 5 t : Vec Ideal S256 .f32) (ix1 e) = (V m c main_arg6 : S256.Idx → EReal) (ix1 e) := by
  have hi := (idx345 t).2.2
  unfold iblk
  rw [View.read_apply]
  refine congrArg (V m c main_arg6 : S256.Idx → EReal) ?_
  funext a
  apply Fin.ext
  match a with
  | ⟨0, _⟩ => show win0_5.index t 0 * 256 + 1 * e.val = e.val; rw [hi]; omega

/-! ## The six windows at an index -/

/-- A grid point as a tile number (the grid has 2 × 64 = 128 points, in row-major order). -/
def pt (t : Fin cfg0.N) : Fin 128 := ⟨t.val, lt_of_lt_of_eq t.isLt N_0⟩

/-- Window 0's block at point `t`: the first index array, clipped into the slot table, at the tile's interactions. -/
theorem iblk0_apply (c : Dev nD) (t : Fin cfg0.N) (q : Fin 4096) :
    (iblk m c 0 t : Vec Ideal S1x4096 .i32) (ix2 0 q) = clipW 1023#32 (tab1 (m ((c.tc : Thread nD τ).loc main_arg1)) (tileIdx (pt t) q)) := by
  refine (iblk0_read m c t q (tileIdx (pt t) q) rfl).trans ?_
  rw [V_main_v1, clipRow_apply]

/-- Window 1's block: the second index array, clipped into the slot table. -/
theorem iblk1_apply (c : Dev nD) (t : Fin cfg0.N) (q : Fin 4096) :
    (iblk m c 1 t : Vec Ideal S1x4096 .i32) (ix2 0 q) = clipW 1023#32 (tab1 (m ((c.tc : Thread nD τ).loc main_arg2)) (tileIdx (pt t) q)) := by
  refine (iblk1_read m c t q (tileIdx (pt t) q) rfl).trans ?_
  rw [V_main_v3, clipRow_apply]

/-- Window 2's block: the relation index array, clipped into the relation table. -/
theorem iblk2_apply (c : Dev nD) (t : Fin cfg0.N) (q : Fin 4096) :
    (iblk m c 2 t : Vec Ideal S1x4096 .i32) (ix2 0 q) = clipW 12#32 (tab1 (m ((c.tc : Thread nD τ).loc main_arg3)) (tileIdx (pt t) q)) := by
  refine (iblk2_read m c t q (tileIdx (pt t) q) rfl).trans ?_
  rw [V_main_v5, clipRow_apply]

/-- Window 3's block is the whole projected slot table. -/
theorem iblk3_apply (c : Dev nD) (t : Fin cfg0.N) (k : Fin 1024) (e : Fin 256) :
    (iblk m c 3 t : Vec Ideal S1024x256 .bf16) (ix2 k e) = csProj (tab2 (m ((c.tc : Thread nD τ).loc main_arg0))) (tab2 (m ((c.tc : Thread nD τ).loc main_arg5))) k e := by
  refine (iblk3_read m c t k e).trans ?_
  rw [V_main_v10, csArr_apply]

/-- Window 4's block is the whole projected relation table. -/
theorem iblk4_apply (c : Dev nD) (t : Fin cfg0.N) (k : Fin 13) (e : Fin 256) :
    (iblk m c 4 t : Vec Ideal S13x256 .bf16) (ix2 k e) = relProj (tab2 (m ((c.tc : Thread nD τ).loc main_arg4))) (tab2 (m ((c.tc : Thread nD τ).loc main_arg5))) k e := by
  refine (iblk4_read m c t k e).trans ?_
  rw [V_main_v12, relArr_apply]

/-- Window 5's block is the whole bias. -/
theorem iblk5_apply (c : Dev nD) (t : Fin cfg0.N) (e : Fin 256) :
    (iblk m c 5 t : Vec Ideal S256 .f32) (ix1 e) = tab1 (m ((c.tc : Thread nD τ).loc main_arg6)) e := by
  exact (iblk5_read m c t e).trans (congrFun (V_main_arg6 m c) (ix1 e))

end Cert.KernelIdeal.Head

end
-- ==== Proof.KerAccum.lean ====
/-
  The output block's row 0 after each grid point: the sum of the tiles' column sums since the core's first point.
  At a core's first point the body zeroes the block and adds the tile's sums to row 0; at every other point it adds
  them to what row 0 held. So after point `t` row 0 holds the sums of the tiles `64·(t / 64) … t`, by induction on `t`.
-/
import proofs.«413298_j60790967107676_3_alg».proof.Proof.KerPoint
import proofs.«413298_j60790967107676_3_alg».proof.Proof.KerHead

noncomputable section

namespace Cert.KernelIdeal.Accum

open Idealize.ShloMosaic Idealize.ShloMosaic.TcCoe Idealize.SL.Sem Idealize.ShloMosaic.ValueIdx
open Cert.KernelIdeal Cert.KernelIdeal.Gen Cert.Interact Cert.KernelIdeal.Point Cert.KernelIdeal.Head

variable (m : (ℓ : Loc nD τ sig) → Buf (Elt Ideal) ℓ)

/-- The core a grid point belongs to. -/
def coreOf (t : Fin cfg0.N) : Fin 2 := ⟨t.val / 64, by have := lt_of_lt_of_eq t.isLt N_0; omega⟩

/-- The tile's column sums at point `t`, of the blocks the windows hold there, are the specification's tile sums. -/
theorem tile_at (c : Dev nD) (t : Fin cfg0.N) (e : Fin 256) :
    tileOf (iblk m c 0 t : Vec Ideal S1x4096 .i32) (iblk m c 1 t : Vec Ideal S1x4096 .i32) (iblk m c 2 t : Vec Ideal S1x4096 .i32)
        (iblk m c 3 t : Vec Ideal S1024x256 .bf16) (iblk m c 4 t : Vec Ideal S13x256 .bf16) (iblk m c 5 t : Vec Ideal S256 .f32) e
      = tileK (tab2 (m ((c.tc : Thread nD τ).loc main_arg0))) (tab2 (m ((c.tc : Thread nD τ).loc main_arg4))) (tab2 (m ((c.tc : Thread nD τ).loc main_arg5))) (tab1 (m ((c.tc : Thread nD τ).loc main_arg6))) (tab1 (m ((c.tc : Thread nD τ).loc main_arg1))) (tab1 (m ((c.tc : Thread nD τ).loc main_arg2))) (tab1 (m ((c.tc : Thread nD τ).loc main_arg3))) (pt t) e := by
  unfold tileOf tileK hpreK
  simp only [iblk0_apply m c t, iblk1_apply m c t, iblk2_apply m c t, iblk3_apply m c t, iblk4_apply m c t, iblk5_apply m c t]

/-- The sum of the tiles of point `n`'s core from the core's first point up to `n`. -/
def accSum (c : Dev nD) (e : Fin 256) (n : ℕ) (hn : n < cfg0.N) : EReal :=
  ∑ s ∈ Finset.range (n % 64 + 1), if h : s < 64 then
    tileK (tab2 (m ((c.tc : Thread nD τ).loc main_arg0))) (tab2 (m ((c.tc : Thread nD τ).loc main_arg4))) (tab2 (m ((c.tc : Thread nD τ).loc main_arg5))) (tab1 (m ((c.tc : Thread nD τ).loc main_arg6))) (tab1 (m ((c.tc : Thread nD τ).loc main_arg1))) (tab1 (m ((c.tc : Thread nD τ).loc main_arg2))) (tab1 (m ((c.tc : Thread nD τ).loc main_arg3))) (coreTile (coreOf ⟨n, hn⟩) ⟨s, h⟩) e else 0

/-- A core's first point: zero plus the point's tile. -/
theorem stepA (c : Dev nD) (e : Fin 256) (t : Fin cfg0.N) (h0 : t.val % 64 = 0) :
    (outsAt0 m c t.val t.isLt : Vec Ideal S8x256 .f32) (ix2 0 e) = accSum m c e t.val t.isLt := by
  rw [outsAt0_A m c t h0]
  refine (out_A_row0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t) (iblk m c 4 t) (iblk m c 5 t) e).trans ?_
  rw [tile_at m c t e, zero_add]
  unfold accSum
  rw [h0, Nat.zero_add, Finset.sum_range_one, dif_pos (by decide : 0 < 64)]
  congr 1
  apply Fin.ext
  show t.val = t.val / 64 * 64 + 0
  omega

/-- Any other point: what the point before left plus the point's tile. -/
theorem stepB (c : Dev nD) (e : Fin 256) (t : Fin cfg0.N) (h0 : ¬t.val % 64 = 0)
    (ih : (outsAt0 m c (t.val - 1) (Nat.lt_of_le_of_lt (Nat.sub_le _ _) t.isLt) : Vec Ideal S8x256 .f32) (ix2 0 e)
      = accSum m c e (t.val - 1) (Nat.lt_of_le_of_lt (Nat.sub_le _ _) t.isLt)) :
    (outsAt0 m c t.val t.isLt : Vec Ideal S8x256 .f32) (ix2 0 e) = accSum m c e t.val t.isLt := by
  rw [outsAt0_B m c t h0]
  refine (out_B_row0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (iblk m c 4 t) (iblk m c 5 t)
    (outsAt0 m c (t.val - 1) (Nat.lt_of_le_of_lt (Nat.sub_le _ _) t.isLt)) e).trans ?_
  rw [tile_at m c t e, ih]
  unfold accSum
  have h1 : (t.val - 1) % 64 + 1 = t.val % 64 := by omega
  have hc : coreOf ⟨t.val - 1, Nat.lt_of_le_of_lt (Nat.sub_le _ _) t.isLt⟩ = coreOf ⟨t.val, t.isLt⟩ :=
    Fin.ext (by show (t.val - 1) / 64 = t.val / 64; omega)
  rw [h1, hc, Finset.sum_range_succ, dif_pos (Nat.mod_lt _ (by decide : 0 < 64))]
  congr 2
  apply Fin.ext
  show t.val = t.val / 64 * 64 + t.val % 64
  omega

/-- Row 0 after point `n`, by induction on `n`. -/
theorem outsAt_row0_nat (c : Dev nD) (e : Fin 256) (n : ℕ) :
    ∀ hn : n < cfg0.N, (outsAt0 m c n hn : Vec Ideal S8x256 .f32) (ix2 0 e) = accSum m c e n hn := by
  induction n with
  | zero => intro hn; exact stepA m c e ⟨0, hn⟩ (Nat.zero_mod 64)
  | succ k ih =>
    intro hn
    by_cases h0 : (k + 1) % 64 = 0
    · exact stepA m c e ⟨k + 1, hn⟩ h0
    · exact stepB m c e ⟨k + 1, hn⟩ h0 (ih (Nat.lt_of_succ_lt hn))

/-- Row 0 of the output block after point `t`: the tiles of `t`'s core up to `t`, summed. -/
theorem outsAt_row0 (c : Dev nD) (t : Fin cfg0.N) (e : Fin 256) :
    (outsAt0 m c t.val t.isLt : Vec Ideal S8x256 .f32) (ix2 0 e)
      = ∑ s ∈ Finset.range (t.val % 64 + 1), if h : s < 64 then
          tileK (tab2 (m ((c.tc : Thread nD τ).loc main_arg0))) (tab2 (m ((c.tc : Thread nD τ).loc main_arg4))) (tab2 (m ((c.tc : Thread nD τ).loc main_arg5))) (tab1 (m ((c.tc : Thread nD τ).loc main_arg6))) (tab1 (m ((c.tc : Thread nD τ).loc main_arg1))) (tab1 (m ((c.tc : Thread nD τ).loc main_arg2))) (tab1 (m ((c.tc : Thread nD τ).loc main_arg3))) (coreTile (coreOf t) ⟨s, h⟩) e else 0 :=
  outsAt_row0_nat m c e t.val t.isLt

end Cert.KernelIdeal.Accum

end
-- ==== Proof.Consts.lean ====
/-
  The float literals the two programs spell, as the extended reals they denote.
-/
import Idealize.ShloMosaic.PureOps.Ideal

noncomputable section

namespace Cert.Consts

open Idealize.ShloMosaic

/-- `524288.0 = 2¹⁹`, the factor that counts `b2` once per interaction. -/
theorem ofBits_n : Ideal.ofBits .f32 0x49000000#32 = ((524288 : ℝ) : EReal) := by
  simp [Ideal.ofBits, Ideal.ieee, -EReal.coe_mul]; norm_num

/-- `1.0`, the numerator and the added one of the reference's `1 / (1 + e⁻ˣ)`. -/
theorem ofBits_one : Ideal.ofBits .f32 0x3F800000#32 = 1 := by
  simp [Ideal.ofBits, Ideal.ieee, -EReal.coe_mul]; norm_num

end Cert.Consts

end
-- ==== Proof.KerTail.lean ====
/-
  From the output blocks to the result: each core's block is written back after the core's last point, row 0 of the two
  blocks is summed, the second layer is applied once and `b2` is counted by one product.
-/
import proofs.«413298_j60790967107676_3_alg».proof.Proof.KerAccum
import proofs.«413298_j60790967107676_3_alg».proof.Proof.Consts
import Idealize.ShloMosaic.Lib.StackMember

noncomputable section

namespace Cert.KernelIdeal.Tail

open Idealize.ShloMosaic Idealize.ShloMosaic.TcCoe Idealize.SL.Sem Idealize.ShloMosaic.ValueIdx
open Idealize.ShloMosaic.Pipeline (Dat)
open Cert.KernelIdeal Cert.KernelIdeal.Gen Cert.Interact Cert.KernelIdeal.Accum

variable (m : (ℓ : Loc nD τ sig) → Buf (Elt Ideal) ℓ) (ρ : Dev nD → PrngReg)

/-- `outsAt0` depends on the point only through its number. -/
theorem outsAt0_congr (c : Dev nD) {n n' : ℕ} (hn : n < cfg0.N) (hn' : n' < cfg0.N) (e : n = n') {j j' : S8x256.Idx}
    (ej : j = j') : (outsAt0 m c n hn : Vec Ideal S8x256 .f32) j = outsAt0 m c n' hn' j' := by
  subst e ej; rfl

/-- The whole result array: core `r / 8`'s block after its last point, at row `r % 8`. -/
def outArray (c : Dev nD) : Vec Ideal S16x256 .f32 := fun i =>
  outsAt0 m c (64 * ((i 0).val / 8) + 63) (by rw [show cfg0.N = 128 from N_0]; have := idx2_lt0 i; omega)
    (ix2 ⟨(i 0).val % 8, Nat.mod_lt _ (by decide)⟩ ⟨(i 1).val, idx2_lt1 i⟩)

/-- The output window's block index at a point: the core's number on the rows, 0 on the columns. -/
theorem index_out : ∀ t : Fin cfg0.N, win0_6.index t 0 = t.val / 64 ∧ win0_6.index t 1 = 0 :=
  (by decide +kernel : ∀ t : Fin grid0.N, win0_6.index t 0 = t.val / 64 ∧ win0_6.index t 1 = 0)

/-- What a write-back of the output window writes is its block of that array: the point is its core's last, so the
    block's rows are the core's and the contents are the block after that point. -/
theorem flushed_out (c : Dev nD) (t : Fin cfg0.N) (hf : (cfg0.win 6).flush t = true) :
    (dats m 0 c).flushed 6 t = ((cfg0.win 6).blk t).view.read (Elt Ideal) (outArray m c) := by
  have hN : cfg0.N = 128 := N_0
  have h63 : t.val % 64 = 63 := (flush0_6 t).mp hf
  have hi := index_out t
  show (cfg0.win 6).cut (grid0.coords t) ((dats m 0 c).after 6 t) = _
  rw [after0_6]
  funext y
  rw [View.read_apply]
  have hy0 : (y 0).val < 8 := (y 0).isLt
  have hy1 : (y 1).val < 256 := (y 1).isLt
  show outsAt0 m c t.val t.isLt ((cfg0.win 6).xinj (grid0.coords t) y) = outArray m c (((cfg0.win 6).blk t).view.emb y)
  unfold outArray
  refine outsAt0_congr m c _ _ ?_ ?_
  · show t.val = 64 * ((win0_6.index t 0 * 8 + 1 * (y 0).val) / 8) + 63
    rw [hi.1]; omega
  · refine Shape.idx_ext₂ ?_ ?_
    · show (y 0).val = (win0_6.index t 0 * 8 + 1 * (y 0).val) % 8
      rw [hi.1]; omega
    · show (y 1).val = win0_6.index t 1 * 256 + 1 * (y 1).val
      rw [hi.2]; omega

/-- The last point of core `cc`. -/
def lastPt (cc : Fin 2) : Fin cfg0.N := ⟨64 * cc.val + 63, by rw [show cfg0.N = 128 from N_0]; have := cc.isLt; omega⟩

/-- After the region, row `8·cc` of the output array (row 0 of core `cc`'s block) holds the core's summed activations. -/
theorem final6 (c : Dev nD) (cc : Fin 2) (e : Fin 256) :
    ((dats m 0 c).arrAt 6 cfg0.N : Vec Ideal S16x256 .f32) (ix2 ⟨cc.val * 8, by have := cc.isLt; omega⟩ e)
      = coreK (tab2 (m ((c.tc : Thread nD τ).loc main_arg0))) (tab2 (m ((c.tc : Thread nD τ).loc main_arg4))) (tab2 (m ((c.tc : Thread nD τ).loc main_arg5))) (tab1 (m ((c.tc : Thread nD τ).loc main_arg6))) (tab1 (m ((c.tc : Thread nD τ).loc main_arg1))) (tab1 (m ((c.tc : Thread nD τ).loc main_arg2))) (tab1 (m ((c.tc : Thread nD τ).loc main_arg3))) cc e := by
  have hcc := cc.isLt
  have hfl : (cfg0.win 6).flush (lastPt cc) = true := (flush0_6 (lastPt cc)).mpr (by show (64 * cc.val + 63) % 64 = 63; omega)
  have hi := index_out (lastPt cc)
  have hmem : (ix2 ⟨cc.val * 8, by omega⟩ e : S16x256.Idx) ∈ ((cfg0.win 6).blk (lastPt cc)).view.set := by
    show _ ∈ ((View.whole main_v13).slice (win0_6.rect (lastPt cc))).set
    rw [View.set_slice_whole, Rect.mem_set_unit]
    intro a
    match a with
    | ⟨0, _⟩ =>
      show win0_6.index (lastPt cc) 0 * 8 ≤ cc.val * 8 ∧ cc.val * 8 < win0_6.index (lastPt cc) 0 * 8 + 8
      rw [hi.1]; show (64 * cc.val + 63) / 64 * 8 ≤ cc.val * 8 ∧ cc.val * 8 < (64 * cc.val + 63) / 64 * 8 + 8; omega
    | ⟨1, _⟩ =>
      show win0_6.index (lastPt cc) 1 * 256 ≤ e.val ∧ e.val < win0_6.index (lastPt cc) 1 * 256 + 256
      rw [hi.2]; have := e.isLt; omega
  rw [(dats m 0 c).arrAt_apply_of_mem 6 (outArray m c) (flushed_out m c) cfg0.N (lastPt cc) _ (lastPt cc).isLt hfl hmem]
  have h1 : outArray m c (ix2 ⟨cc.val * 8, by omega⟩ e) = outsAt0 m c (lastPt cc).val (lastPt cc).isLt (ix2 0 e) := by
    unfold outArray
    refine outsAt0_congr m c _ _ ?_ ?_
    · show 64 * (cc.val * 8 / 8) + 63 = 64 * cc.val + 63; omega
    · refine Shape.idx_ext₂ ?_ ?_
      · show cc.val * 8 % 8 = 0; omega
      · rfl
  have h2 : (lastPt cc).val % 64 + 1 = 64 := by show (64 * cc.val + 63) % 64 + 1 = 64; omega
  have h3 : coreOf (lastPt cc) = cc := Fin.ext (by show (64 * cc.val + 63) / 64 = cc.val; omega)
  rw [h1, outsAt_row0 m c (lastPt cc) e, h2, h3]
  rfl

/-- Row 0 of each core's block as a [2, 256] array: the result array cut into two blocks of 8 rows, the first row of
    each kept. -/
def rows (A : FVec Ideal S16x256 .f32) : FVec Ideal S2x256 .f32 :=
  shapeCast S2x256 (extractStridedSlice S2x1x256 ![0, 0, 0] (shapeCast S2x8x256 A shapeCasts_S16x256_S2x8x256)
    slices_S2x8x256_S2x1x256_0_0_0) shapeCasts_S2x1x256_S2x256

/-- At (k, c) it reads the result array at row 8·k, column c: the same row-major positions through both reshapes. -/
theorem rows_apply (A : FVec Ideal S16x256 .f32) (k : Fin 2) (c : Fin 256) :
    rows A (ix2 k c) = A (ix2 ⟨k.val * 8, by have := k.isLt; omega⟩ c) := by
  have hk := k.isLt
  have hc := c.isLt
  unfold rows
  refine (shapeCast_apply _ _ (ix2 k c) (ix3 k (0 : Fin 1) c) ?_).trans ?_
  · rw [Shape.rowMajor_val_three, Shape.rowMajor_val_two]
    show (k.val * 1 + 0) * 256 + c.val = k.val * 256 + c.val
    omega
  refine (extractStridedSlice_apply _ _ _ (ix3 k (0 : Fin 1) c) (ix3 k (0 : Fin 8) c) ?_).trans ?_
  · intro a
    match a with
    | ⟨0, _⟩ => show k.val = 0 + k.val; omega
    | ⟨1, _⟩ => show 0 = 0 + 0; rfl
    | ⟨2, _⟩ => show c.val = 0 + c.val; omega
  refine shapeCast_apply _ _ (ix3 k (0 : Fin 8) c) (ix2 ⟨k.val * 8, by omega⟩ c) ?_
  rw [Shape.rowMajor_val_two, Shape.rowMajor_val_three]
  show k.val * 8 * 256 + c.val = (k.val * 8 + 0) * 256 + c.val
  omega

/-- The host operations after the region, as one function of the result array, the second layer and its bias. -/
def tailOf (A : FVec Ideal S16x256 .f32) (W2 : FVec Ideal S256x256 .f32) (b2 : FVec Ideal S256 .f32) : FVec Ideal S1x256 .f32 :=
  addf
    (Host.dotGeneral (F := Ideal) dot_S1x256_S256x256_S1x256_1_0_0_1_n_n none
      (broadcastInDim S1x256 ![1] bcast_S256_S1x256_1
        (Host.reduceAdd (F := Ideal) (rows A) (constant (F := Ideal) S_ .f32 0x00000000#32) reducesTo_S2x256_S256_d0 h_S_))
      W2)
    (broadcastInDim S1x256 ![1] bcast_S256_S1x256_1
      (mulf (broadcastInDim S256 ![] bcast_S_S256 (constant (F := Ideal) S_ .f32 0x49000000#32)) b2))

/-- A vector broadcast to a one-row matrix reads, at column `d`, the vector at `d`. -/
theorem bcastRow_apply (x : FVec Ideal S256 .f32) (d : Fin 256) :
    broadcastInDim S1x256 ![1] bcast_S256_S1x256_1 x (ix2 0 d) = x (ix1 d) := by
  refine broadcastInDim_apply _ _ _ (ix2 0 d) (ix1 d) ?_
  intro a
  match a with
  | ⟨0, _⟩ => rfl

/-- The tail at column `d`: the two cores' rows summed from zero, through the second layer, plus `524288 · b2 d`. -/
theorem tailOf_apply (A : FVec Ideal S16x256 .f32) (W2 : FVec Ideal S256x256 .f32) (b2 : FVec Ideal S256 .f32) (d : Fin 256) :
    tailOf A W2 b2 (ix2 0 d)
      = (∑ e : Fin 256, (∑ k : Fin 2, A (ix2 ⟨k.val * 8, by have := k.isLt; omega⟩ e)) * W2 (ix2 e d))
        + ((524288 : ℝ) : EReal) * b2 (ix1 d) := by
  unfold tailOf
  show (Host.dotGeneral (F := Ideal) (DotDims.plain 1 256 256) none _ W2 (ix2 0 d) : EReal) + _ = _
  rw [StackMember.dotGeneral_plain_apply, bcastRow_apply]
  congr 1
  · refine Finset.sum_congr rfl fun e _ => ?_
    rw [bcastRow_apply]
    congr 1
    show Ideal.hostReduceAdd reducesTo_S2x256_S256_d0 (rows A) (Ideal.ofBits .f32 0x00000000#32) (ix1 e) = _
    rw [Ideal.hostReduceAdd_single reducesTo_S2x256_S256_d0 (by decide : S2x256.Reduces [0] S256), Ideal.ofBits_zero_f32,
      zero_add]
    refine Finset.sum_congr rfl fun k _ => ?_
    have hl : (by decide : S2x256.Reduces [0] S256).lift (ix1 e) k = ix2 k e := by
      funext a
      match a with
      | ⟨0, _⟩ => rfl
      | ⟨1, _⟩ => rfl
    rw [hl]
    exact rows_apply A k e
  · show Ideal.ofBits .f32 0x49000000#32 * b2 (ix1 d) = _
    rw [Cert.Consts.ofBits_n]

/-- What the region leaves at the output array: the array after every write-back. -/
theorem left_v13 (c : Dev nD) :
    Pipeline.withArrays (cfgs 0).spec c (V0 m c) (fun w => (dats m 0 c).arrAt w (cfgs 0).N) (Proc.devRef .tc main_v13)
      = (dats m 0 c).arrAt 6 cfg0.N :=
  Pipeline.withArrays_arr spec0 launch0.win.arr_inj c _ _ 6

/-- What the region leaves at the second layer: it is no window's array, and nothing before the region writes it. -/
theorem left_arg7 (c : Dev nD) :
    Pipeline.withArrays (cfgs 0).spec c (V0 m c) (fun w => (dats m 0 c).arrAt w (cfgs 0).N) (Proc.devRef .tc main_arg7)
      = m ((c.tc : Thread nD τ).loc main_arg7) :=
  (Pipeline.withArrays_of_ne _ c (V0 m c) _ main_arg7 (by exact (by decide : ∀ w, Pipeline.arrRef spec0 w ≠ main_arg7))).trans
    (V_main_arg7 m c)

/-- Likewise at the second layer's bias. -/
theorem left_arg8 (c : Dev nD) :
    Pipeline.withArrays (cfgs 0).spec c (V0 m c) (fun w => (dats m 0 c).arrAt w (cfgs 0).N) (Proc.devRef .tc main_arg8)
      = m ((c.tc : Thread nD τ).loc main_arg8) :=
  (Pipeline.withArrays_of_ne _ c (V0 m c) _ main_arg8 (by exact (by decide : ∀ w, Pipeline.arrRef spec0 w ≠ main_arg8))).trans
    (V_main_arg8 m c)

set_option maxHeartbeats 1600000 in
/-- The result buffer after the region's tail is the tail's function of the output array and of the two arguments the
    tail reads. -/
theorem result_tail (c : Dev nD) :
    Pipeline.afterTail₀ cfgs (dats m) 0 (V0 m) [hostOps1] c main_v23
      = tailOf ((dats m 0 c).arrAt 6 cfg0.N) (m ((c.tc : Thread nD τ).loc main_arg7)) (m ((c.tc : Thread nD τ).loc main_arg8)) := by
  unfold Pipeline.afterTail₀
  show StableHlo.after hostOps1 _ (Proc.devRef .tc main_v23) = _
  after_results
  show tailOf
      (Pipeline.withArrays (cfgs 0).spec c (V0 m c) (fun w => (dats m 0 c).arrAt w (cfgs 0).N) (Proc.devRef .tc main_v13))
      (Pipeline.withArrays (cfgs 0).spec c (V0 m c) (fun w => (dats m 0 c).arrAt w (cfgs 0).N) (Proc.devRef .tc main_arg7))
      (Pipeline.withArrays (cfgs 0).spec c (V0 m c) (fun w => (dats m 0 c).arrAt w (cfgs 0).N) (Proc.devRef .tc main_arg8)) = _
  exact congr (congr (congrArg tailOf (left_v13 m c)) (left_arg7 m c)) (left_arg8 m c)

/-- The host operations after the region turn that array into the kernel side's formula. -/
theorem result_eq (c : Dev nD) :
    Pipeline.afterTail₀ cfgs (dats m) 0 (V0 m) [hostOps1] c main_v23
      = resKAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [result_tail]
  funext i
  obtain ⟨a, d, rfl⟩ : ∃ (a : Fin 1) (d : Fin 256), i = ix2 a d := ⟨i 0, i 1, eq_ix2 i⟩
  obtain rfl : a = 0 := Subsingleton.elim _ _
  rw [tailOf_apply]
  simp only [final6 m c]
  rfl

/-- Every weakly fair execution of the kernel's program ends with its result array at the kernel side's formula of the
    argument arrays, the arguments unchanged. -/
theorem run : θ_run (defs (F := Ideal)) (onTc (τ := τ) (main (F := Ideal))) ⟨m, fun _ => 0, ρ⟩ (fun r => ∀ c : Dev nD,
      r.2.mem ((c.tc : Thread nD τ).loc main_v23)
        = resKAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v23 (Pipeline.mem_restRefs_of main_v23 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 5).trans (((dats m 0 c).arrAt_in 5 rfl _).trans ((A_eq m c 5).trans (V_main_arg6 m c))),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩) (run_main m ρ)

end Cert.KernelIdeal.Tail

end
-- ==== Proof.LibGatherRows.lean ====
/-
  A gather of whole rows of a rank-2 table, read at an index.

  What `x[idx]` of a table `x : [N, C]` at a column of integers `idx : [R]` is as a gather (StableHLO's `gather`, the
  function `Host.gather`): offset_dims `[1]`, collapsed_slice_dims `[0]`, start_index_map `[0]`, index_vector_dim `1` and
  slice_sizes `[1, C]` over the indices as `[R, 1]`. Result element `(n, c)` is the table at row `idx[n, 0]` and column
  `c`, the start word read as a signed integer and clamped into `[0, N − 1]`, as the gather clamps every start index so
  that the slice fits: on the row axis the slice has one row, so the start may be any row; on the column axis the slice
  is the whole row, the start index map does not name it, and the offset coordinate is the result's column.
-/
import Idealize.ShloMosaic.Lib.ValueIdx

noncomputable section

namespace Cert.Lib.GatherRows

open Idealize.ShloMosaic Idealize.ShloMosaic.ValueIdx

variable {α : Type}

/-- The dimension numbers of a gather of whole rows: an operand `[N, C]`, start indices `[R, 1]` and a result `[R, C]`;
    the row axis is collapsed and is the one the start index names, the column axis is the result's offset axis, and a
    slice is one row. Their conditions `wf` are decided on a program's literal shapes. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The start-indices index that result index `(n, c)` reads its one start word at: `(n, 0)`, whatever the column. -/
theorem rowDims_siIdx {N R C : Nat}
    (wf : GatherDims.WF ⟨2, ![N, C]⟩ ⟨2, ![R, 1]⟩ ⟨2, ![R, C]⟩ [1] [0] [] [0] [] 1 ![1, C]) (n : Fin R) (c : Fin C) :
    (rowDims N R C wf).siIdx (ix2 n c) ⟨List.idxOf (0 : Fin 2) (rowDims N R C wf).startIndexMap,
        List.idxOf_lt_length_iff.2 (List.mem_singleton.mpr rfl)⟩ = ix2 n (0 : Fin 1) := by
  funext b
  refine Fin.ext ?_
  match b with
  | ⟨0, _⟩ => rfl
  | ⟨1, _⟩ => rfl

/-- THE GATHER OF ROWS READ AT `(n, c)`: the table at the row of the start word `idx[n, 0]`, read signed and clamped into
    `[0, N − 1]`, and at column `c`. -/
theorem gather_row_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (n : Fin R) (c : Fin C) :
    Host.gather (rowDims N R C wf) x idx (ix2 n c)
      = x (ix2 ⟨min (idx (ix2 n (0 : Fin 1))).toInt.toNat (N - 1), by omega⟩ c) := by
  unfold Host.gather
  congr 1
  funext a
  refine Fin.ext ?_
  have h10 : ¬ (1 : Fin 2) = 0 := by decide
  match a with
  | ⟨0, _⟩ =>
    -- the row axis: the clamped start word, no batching coordinate, no offset (the axis is collapsed)
    show (rowDims N R C wf).start (ix2 n c) idx 0 + (rowDims N R C wf).batchCoord (ix2 n c) 0
      + (rowDims N R C wf).offCoord (ix2 n c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl),
      rowDims_siIdx wf n c]
    rfl
  | ⟨1, _⟩ =>
    -- the column axis: no start (the start index map does not name it), no batching coordinate, the offset `c`
    show (rowDims N R C wf).start (ix2 n c) idx 1 + (rowDims N R C wf).batchCoord (ix2 n c) 1
      + (rowDims N R C wf).offCoord (ix2 n c) 1 = c.val
    rw [GatherDims.batchCoord_eq_zero _ _ _ List.not_mem_nil]
    unfold GatherDims.start
    rw [dif_neg (show ¬ (1 : Fin 2) ∈ (rowDims N R C wf).startIndexMap from fun h => h10 (List.mem_singleton.mp h))]
    simp only [Nat.add_zero, Nat.zero_add]
    unfold GatherDims.offCoord
    rw [dif_pos (show (1 : Fin 2) ∈ (rowDims N R C wf).sKept from
      (GatherDims.mem_sKept _ _).mpr ⟨fun h => h10 (List.mem_singleton.mp h), List.not_mem_nil⟩)]
    rfl

end Cert.Lib.GatherRows

end
-- ==== Proof.RefValue.lean ====
/-
  The reference's run, read: its result array is the reference side's formula of the argument arrays.
-/
import proofs.«413298_j60790967107676_3_alg».proof.Proof.Tables
import proofs.«413298_j60790967107676_3_alg».proof.Proof.Consts
import proofs.«413298_j60790967107676_3_alg».proof.Proof.LibGatherRows
import proofs.«413298_j60790967107676_3_alg».proof.Proof.Gen.ReferenceIdeal.Run
import proofs.«413298_j60790967107676_3_alg».proof.Proof.Gen.ReferenceIdeal.Read
import Idealize.ShloMosaic.Lib.Pipeline.Value
import Idealize.ShloMosaic.PureOps.Ideal.Laws

noncomputable section

namespace Cert.ReferenceIdeal.RefValue

open Idealize.ShloMosaic Idealize.ShloMosaic.TcCoe Idealize.SL.Sem Idealize.ShloMosaic.ValueIdx
open Cert.ReferenceIdeal Cert.Interact

variable (m : (ℓ : Loc nD τ sig) → Buf (Elt Ideal) ℓ) (ρ : Dev nD → PrngReg)

/-! ## The index wrap -/

/-- The reference's wrap of one index word: `select (w <ₛ 0) (w + n) w`. -/
theorem select_wrap (n w : BitVec 32) :
    Scalar.select (IntOp.cmpi .slt w 0#32) (IntOp.addi w n) w = wrapW n w := by
  unfold wrapW IntOp.cmpi IntOp.addi Scalar.select
  cases h : w.slt 0#32 <;> simp

/-! ## The stages of the reference, read at an index -/

section Stages
open Cert.ReferenceIdeal.Read Cert.ReferenceIdeal.Gen Cert.Lib.GatherRows

variable (x0 : (⟨S1024x256, .f32⟩ : BufTy).Contents (Elt Ideal)) (x1 x2 x3 : (⟨S524288, .i32⟩ : BufTy).Contents (Elt Ideal))
  (x4 : (⟨S13x256, .f32⟩ : BufTy).Contents (Elt Ideal)) (x5 : (⟨S512x256, .f32⟩ : BufTy).Contents (Elt Ideal))
  (x6 : (⟨S256, .f32⟩ : BufTy).Contents (Elt Ideal)) (x7 : (⟨S256x256, .f32⟩ : BufTy).Contents (Elt Ideal))
  (x8 : (⟨S256, .f32⟩ : BufTy).Contents (Elt Ideal))

/-- The start-indices index `(n, 0)` comes from position `n` of the wrapped index words. -/
theorem idx_start (n : Fin 524288) : idx_main_v5 (ix2 n (0 : Fin 1)) = ix1 n :=
  funext fun a => by match a with | ⟨0, _⟩ => rfl

/-- The relation index words, wrapped by the relation table's length. -/
theorem v5_apply (n : Fin 524288) :
    val_main_v5 (F := Ideal) x3 (ix2 n (0 : Fin 1)) = wrapW (BitVec.ofNat 32 13) (tab1 x3 n) := by
  rw [val_main_v5_apply, idx_start, val_main_v4_apply, val_main_v1_apply, val_main_v3_apply, val_main_v0_apply,
    val_main_c_apply, val_main_v2_apply, val_main_c_0_apply]
  exact select_wrap _ _

/-- The first slot index words, wrapped by the slot table's length. -/
theorem v12_apply (n : Fin 524288) :
    val_main_v12 (F := Ideal) x1 (ix2 n (0 : Fin 1)) = wrapW (BitVec.ofNat 32 1024) (tab1 x1 n) := by
  rw [val_main_v12_apply, show idx_main_v12 (ix2 n (0 : Fin 1)) = ix1 n from idx_start n, val_main_v11_apply,
    val_main_v8_apply, val_main_v10_apply, val_main_v7_apply, val_main_c_1_apply, val_main_v9_apply, val_main_c_2_apply]
  exact select_wrap _ _

/-- The second slot index words, wrapped by the slot table's length. -/
theorem v19_apply (n : Fin 524288) :
    val_main_v19 (F := Ideal) x2 (ix2 n (0 : Fin 1)) = wrapW (BitVec.ofNat 32 1024) (tab1 x2 n) := by
  rw [val_main_v19_apply, show idx_main_v19 (ix2 n (0 : Fin 1)) = ix1 n from idx_start n, val_main_v18_apply,
    val_main_v15_apply, val_main_v17_apply, val_main_v14_apply, val_main_c_3_apply, val_main_v16_apply, val_main_c_4_apply]
  exact select_wrap _ _

/-- The gathered relation rows. -/
theorem v6_apply (n : Fin 524288) (c : Fin 256) :
    val_main_v6 (F := Ideal) x3 x4 (ix2 n c) = tab2 x4 (rowR 13 (by decide) (tab1 x3 n)) c := by
  unfold val_main_v6
  refine (gather_row_apply (N := 13) (R := 524288) (C := 256) (by decide)
    gather_S13x256_S524288x1_S524288x256_1_0_n_n_0_1_1256.wf x4 (val_main_v5 (F := Ideal) x3) n c).trans ?_
  show x4 (ix2 (clampRow 13 (by decide) (val_main_v5 (F := Ideal) x3 (ix2 n (0 : Fin 1)))) c) = _
  rw [v5_apply]
  rfl

/-- The gathered first slot rows. -/
theorem v13_apply (n : Fin 524288) (c : Fin 256) :
    val_main_v13 (F := Ideal) x0 x1 (ix2 n c) = tab2 x0 (rowR 1024 (by decide) (tab1 x1 n)) c := by
  unfold val_main_v13
  refine (gather_row_apply (N := 1024) (R := 524288) (C := 256) (by decide)
    gather_S1024x256_S524288x1_S524288x256_1_0_n_n_0_1_1256.wf x0 (val_main_v12 (F := Ideal) x1) n c).trans ?_
  show x0 (ix2 (clampRow 1024 (by decide) (val_main_v12 (F := Ideal) x1 (ix2 n (0 : Fin 1)))) c) = _
  rw [v12_apply]
  rfl

/-- The gathered second slot rows. -/
theorem v20_apply (n : Fin 524288) (c : Fin 256) :
    val_main_v20 (F := Ideal) x0 x2 (ix2 n c) = tab2 x0 (rowR 1024 (by decide) (tab1 x2 n)) c := by
  unfold val_main_v20
  refine (gather_row_apply (N := 1024) (R := 524288) (C := 256) (by decide)
    gather_S1024x256_S524288x1_S524288x256_1_0_n_n_0_1_1256.wf x0 (val_main_v19 (F := Ideal) x2) n c).trans ?_
  show x0 (ix2 (clampRow 1024 (by decide) (val_main_v19 (F := Ideal) x2 (ix2 n (0 : Fin 1)))) c) = _
  rw [v19_apply]
  rfl

/-- The concatenation below column 256: the pair's sum plus the relation row. -/
theorem v23_apply_lo (n : Fin 524288) (j : Fin 512) (h : j.val < 256) :
    val_main_v23 (F := Ideal) x0 x1 x2 x3 x4 (ix2 n j) = val_main_v22 (F := Ideal) x0 x1 x2 x3 x4 (ix2 n ⟨j.val, h⟩) := by
  unfold val_main_v23
  exact concatenate_pair_apply_left (t := S524288x512) (s₁ := S524288x256) (s₂ := S524288x256) (1 : Fin 2) _ _
    concatenates_S524288x256_S524288x256_S524288x512_d1 (ix2 n j) rfl
    (ix2 n (⟨j.val, h⟩ : Fin 256)) (fun b => by match b with | ⟨0, _⟩ => rfl | ⟨1, _⟩ => rfl)

/-- The concatenation from column 256 on: the relation row, 256 columns back. -/
theorem v23_apply_hi (n : Fin 524288) (j : Fin 512) (h : ¬ j.val < 256) :
    val_main_v23 (F := Ideal) x0 x1 x2 x3 x4 (ix2 n j)
      = val_main_v6 (F := Ideal) x3 x4 (ix2 n ⟨j.val - 256, by have := j.isLt; omega⟩) := by
  unfold val_main_v23
  exact concatenate_pair_apply_right (t := S524288x512) (s₁ := S524288x256) (s₂ := S524288x256) (1 : Fin 2) _ _
    concatenates_S524288x256_S524288x256_S524288x512_d1 (ix2 n j) rfl rfl
    (ix2 n (⟨j.val - 256, by have := j.isLt; omega⟩ : Fin 256))
    (fun b hb => by match b with | ⟨0, _⟩ => rfl | ⟨1, _⟩ => exact absurd rfl hb)
    (by show (j.val - 256) + 256 = j.val; omega)

/-- The concatenated row is the specification's. -/
theorem v23_apply (n : Fin 524288) (j : Fin 512) :
    val_main_v23 (F := Ideal) x0 x1 x2 x3 x4 (ix2 n j) = comb (tab2 x0) (tab2 x4) (tab1 x1) (tab1 x2) (tab1 x3) n j := by
  unfold comb
  by_cases h : j.val < 256
  · rw [dif_pos h, v23_apply_lo x0 x1 x2 x3 x4 n j h, val_main_v22_apply, val_main_v21_apply, v13_apply, v20_apply, v6_apply]
    rfl
  · rw [dif_neg h, v23_apply_hi x0 x1 x2 x3 x4 n j h, v6_apply]

/-- The pre-activation: the concatenated row through the first layer, plus its bias. -/
theorem v27_apply (n : Fin 524288) (e : Fin 256) :
    val_main_v27 (F := Ideal) x0 x1 x2 x3 x4 x5 x6 (ix2 n e)
      = hpreR (tab2 x0) (tab2 x4) (tab2 x5) (tab1 x6) (tab1 x1) (tab1 x2) (tab1 x3) n e := by
  have hl : ∀ k : Fin 512, lidx_main_v24 (ix2 n e) k = ix2 n k := fun k =>
    funext fun a => by match a with | ⟨0, _⟩ => rfl | ⟨1, _⟩ => rfl
  have hr : ∀ k : Fin 512, ridx_main_v24 (ix2 n e) k = ix2 k e := fun k =>
    funext fun a => by match a with | ⟨0, _⟩ => rfl | ⟨1, _⟩ => rfl
  have hb : idx_main_v25 (idx_main_v26 (ix2 n e)) = ix1 e :=
    funext fun a => by match a with | ⟨0, _⟩ => rfl
  rw [val_main_v27_apply, val_main_v24_apply, val_main_v26_apply, val_main_v25_apply, hb]
  simp only [hl, hr, v23_apply, Ideal.addf_def]
  rfl

/-- The activation: `x · (1 / (1 + e⁻ˣ))` with both ones the literal `1.0` is `silu`. -/
theorem v28_apply (n : Fin 524288) (e : Fin 256) :
    val_main_v28 (F := Ideal) x0 x1 x2 x3 x4 x5 x6 (ix2 n e)
      = silu (hpreR (tab2 x0) (tab2 x4) (tab2 x5) (tab1 x6) (tab1 x1) (tab1 x2) (tab1 x3) n e) := by
  rw [val_main_v28_apply, val_main_call0_v5_apply, val_main_call0_v4_apply, val_main_call0_cst_0_apply,
    val_main_call0_v3_apply, val_main_call0_v2_apply, val_main_call0_cst_apply, val_main_call0_v1_apply,
    val_main_call0_v0_apply, v27_apply]
  simp only [Ideal.mulf_def, Ideal.hostDivf_def, Ideal.ofBits_def, Ideal.addf_def, Ideal.hostUnary_exp_def,
    Ideal.hostNegf_def, Ideal.negf_def, Cert.Consts.ofBits_one]
  rfl

/-- One interaction's row of the result: the activations through the second layer, plus its bias. -/
theorem v32_apply (n : Fin 524288) (d : Fin 256) :
    val_main_v32 (F := Ideal) x0 x1 x2 x3 x4 x5 x6 x7 x8 (ix2 n d)
      = (∑ e : Fin 256, silu (hpreR (tab2 x0) (tab2 x4) (tab2 x5) (tab1 x6) (tab1 x1) (tab1 x2) (tab1 x3) n e) * tab2 x7 e d)
        + tab1 x8 d := by
  have hl : ∀ k : Fin 256, lidx_main_v29 (ix2 n d) k = ix2 n k := fun k =>
    funext fun a => by match a with | ⟨0, _⟩ => rfl | ⟨1, _⟩ => rfl
  have hr : ∀ k : Fin 256, ridx_main_v29 (ix2 n d) k = ix2 k d := fun k =>
    funext fun a => by match a with | ⟨0, _⟩ => rfl | ⟨1, _⟩ => rfl
  have hb : idx_main_v30 (idx_main_v31 (ix2 n d)) = ix1 d :=
    funext fun a => by match a with | ⟨0, _⟩ => rfl
  rw [val_main_v32_apply, val_main_v29_apply, val_main_v31_apply, val_main_v30_apply, hb]
  simp only [hl, hr, v28_apply, Ideal.addf_def]
  rfl

/-- The result array is the reference side's formula. -/
theorem v34_eq :
    val_main_v34 (F := Ideal) x0 x1 x2 x3 x4 x5 x6 x7 x8 = resRAt x0 x1 x2 x3 x4 x5 x6 x7 x8 := by
  funext i
  have hk : ∀ k : Fin 524288, idx_main_v33 (idx_main_v34 i) k = ix2 k (col i) := fun k =>
    funext fun a => by match a with | ⟨0, _⟩ => rfl | ⟨1, _⟩ => rfl
  rw [val_main_v34_apply, val_main_v33_apply, val_main_cst_apply]
  simp only [hk, v32_apply, Ideal.ofBits_def, Ideal.ofBits_zero_f32, zero_add]
  rfl

end Stages

/-- The run's result term is the reference side's formula of the argument arrays. -/
theorem res_eq (c : Dev nD) :
    Cert.ReferenceIdeal.Value.res_main_v34 m c
      = resRAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [Read.val_main_v34_eq]
  exact v34_eq _ _ _ _ _ _ _ _ _

/-- Every weakly fair execution of the reference ends with its result array at the reference side's formula of the
    argument arrays, the arguments unchanged. -/
theorem run : θ_run (defs (F := Ideal)) (onTc (τ := τ) (main (F := Ideal))) ⟨m, fun _ => 0, ρ⟩ (fun r => ∀ c : Dev nD,
      r.2.mem ((c.tc : Thread nD τ).loc main_v34)
        = resRAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  exact (θ_run defs _ _).mono (fun _ h c => ⟨(h c).1.trans (res_eq m c), (h c).2⟩)
    (Cert.ReferenceIdeal.Value.run (F := Ideal) m ρ)

end Cert.ReferenceIdeal.RefValue

end
-- ==== Proof.PreFacts.lean ====
/-
  What the precondition says of the argument arrays: every entry of the six float arrays is a real number, and no
  word of the three index arrays is negative.
-/
import proofs.«413298_j60790967107676_3_alg».proof.Pre_finite_inputs
import Idealize.ShloMosaic.PureOps.Ideal
import Idealize.ShloMosaic.Lib.ReduceAll

noncomputable section

namespace Cert.PreFacts

open Idealize.ShloMosaic Cert.Pre_finite_inputs

/-- The scalar shape has exactly one index. -/
local instance : Subsingleton S_.Idx := ⟨fun a b => funext fun d => d.elim0⟩

/-- The one index of the scalar shape. -/
def scalarIdx : S_.Idx := fun a => a.elim0

/-- The f32 pattern `0x7F800000` denotes `+∞`. -/
theorem ofBits_inf : Ideal.ofBits .f32 0x7F800000#32 = (⊤ : EReal) := by simp [Ideal.ofBits, Ideal.ieee]

/-- An extended real whose absolute value `max a (-a)` compares below `+∞` is a real number: at `⊥` and at `⊤` the
    absolute value is `⊤`, which is not below `⊤`. -/
theorem real_of_abs_lt_inf (a : EReal)
    (h : Ideal.cmp .olt (max a (-a)) (Ideal.ofBits .f32 0x7F800000#32) = 1#1) : ∃ r : ℝ, a = (r : EReal) := by
  rw [ofBits_inf] at h
  induction a using EReal.rec with
  | bot => simp [Ideal.cmp] at h
  | coe r => exact ⟨r, rfl⟩
  | top => simp [Ideal.cmp] at h

/-- `jnp.all(|x| < +inf)` being one: every entry of `x` is a real number. The reduction by `and` into the scalar shape
    gives the compare's word at each index; there the broadcast constant reads `+∞`. -/
theorem real_of_all {s : Shape} {axes : List (Fin s.rank)} (hr : s.ReducesTo axes S_)
    (hb : S_.BroadcastsInDim s (![] : Fin 0 → Fin s.rank)) (h0 : 0 < S_.numel) (x : FVec Ideal s .f32) (init : IVec S_ 1)
    (j : S_.Idx)
    (e : Host.reduce IntOp.andi (cmpf .olt (Host.absf x) (broadcastInDim s ![] hb (constant S_ .f32 0x7F800000#32)))
      init hr h0 j = 1#1) :
    ∀ i, ∃ r : ℝ, x i = (r : EReal) := by
  intro i
  have hi := Host.reduce_andi_all _ init hr h0 j e i
  exact real_of_abs_lt_inf (x i) hi

/-- `jnp.all(idx >= 0)` being one: no word of `idx` is negative. At each index the signed compare with the broadcast
    zero word says `0 ≤ toInt`. -/
theorem nonneg_of_all {s : Shape} {axes : List (Fin s.rank)} (hr : s.ReducesTo axes S_)
    (hb : S_.BroadcastsInDim s (![] : Fin 0 → Fin s.rank)) (h0 : 0 < S_.numel) (idx : IVec s 32) (init : IVec S_ 1)
    (j : S_.Idx)
    (e : Host.reduce IntOp.andi (cmpi .sge idx (broadcastInDim s ![] hb (constantI S_ 32 0#32))) init hr h0 j = 1#1) :
    ∀ n, 0 ≤ (idx n).toInt := by
  intro n
  have hn : IntOp.cmpi .sge (idx n) 0#32 = 1#1 := Host.reduce_andi_all _ init hr h0 j e n
  rw [IntOp.cmpi_sge] at hn
  simpa using hn

variable [Cert.Pre_finite_inputs.Facts]

/-- The precondition, all ones, read entry by entry. -/
theorem of_pre (x0 : FVec Ideal S1024x256 .f32) (i1 i2 i3 : IVec S524288 32) (x4 : FVec Ideal S13x256 .f32)
    (x5 : FVec Ideal S512x256 .f32) (x6 : FVec Ideal S256 .f32) (x7 : FVec Ideal S256x256 .f32) (x8 : FVec Ideal S256 .f32)
    (h : fn (F := Ideal) x0 i1 i2 i3 x4 x5 x6 x7 x8 = fun _ => 1#1) :
    (∀ i, ∃ r : ℝ, x0 i = (r : EReal)) ∧ (∀ i, ∃ r : ℝ, x4 i = (r : EReal)) ∧ (∀ i, ∃ r : ℝ, x5 i = (r : EReal))
      ∧ (∀ i, ∃ r : ℝ, x6 i = (r : EReal)) ∧ (∀ i, ∃ r : ℝ, x7 i = (r : EReal)) ∧ (∀ i, ∃ r : ℝ, x8 i = (r : EReal))
      ∧ (∀ n, 0 ≤ (i1 n).toInt) ∧ (∀ n, 0 ≤ (i2 n).toInt) ∧ (∀ n, 0 ≤ (i3 n).toInt) := by
  -- the result is a rank-0 array: read it at its one index, and unfold the three printed functions
  have hj := congrFun h scalarIdx
  dsimp only [fn, fn_part1, fn_part2, andi] at hj
  -- the nine conjuncts, joined to the left: split them off from the last to the first
  obtain ⟨h8, e9⟩ := IntOp.andi_eq_one.1 hj
  obtain ⟨h7, e8⟩ := IntOp.andi_eq_one.1 h8
  obtain ⟨h6, e7⟩ := IntOp.andi_eq_one.1 h7
  obtain ⟨h5, e6⟩ := IntOp.andi_eq_one.1 h6
  obtain ⟨h4, e5⟩ := IntOp.andi_eq_one.1 h5
  obtain ⟨h3, e4⟩ := IntOp.andi_eq_one.1 h4
  obtain ⟨h2, e3⟩ := IntOp.andi_eq_one.1 h3
  obtain ⟨e1, e2⟩ := IntOp.andi_eq_one.1 h2
  exact ⟨real_of_all _ _ _ x0 _ _ e1, real_of_all _ _ _ x4 _ _ e2, real_of_all _ _ _ x5 _ _ e3,
    real_of_all _ _ _ x6 _ _ e4, real_of_all _ _ _ x7 _ _ e5, real_of_all _ _ _ x8 _ _ e6,
    nonneg_of_all _ _ _ i1 _ _ e7, nonneg_of_all _ _ _ i2 _ _ e8, nonneg_of_all _ _ _ i3 _ _ e9⟩

end Cert.PreFacts

end
-- ==== Proof.lean ====
/-
  The certificate's claim. The kernel gathers rows of two small tables by sums against one-hot columns, with the first
  linear layer folded into the tables and the second applied once to the summed activations; the reference gathers the
  rows, runs both layers per interaction and sums the 524288 rows. Over the extended reals, with finite tables and no
  negative index word, the two results are one function of the arguments: a sum against a one-hot column selects a
  row, a matrix product distributes over the concatenated halves and over the sum of interactions, and the bias of the
  second layer summed 524288 times is its product with 524288. The three frames are the generated frame runs (the
  reference's is its run with the result dropped); the idealization rewrote nothing.
-/
import proofs.«413298_j60790967107676_3_alg».proof.Defs
import proofs.«413298_j60790967107676_3_alg».proof.Proof.Gen.Kernel.Frame
import proofs.«413298_j60790967107676_3_alg».proof.Proof.Gen.KernelIdeal.Frame
import proofs.«413298_j60790967107676_3_alg».proof.Proof.Gen.ReferenceIdeal
import proofs.«413298_j60790967107676_3_alg».proof.Proof.Gen.Pre_finite_inputs
import proofs.«413298_j60790967107676_3_alg».proof.Proof.KerTail
import proofs.«413298_j60790967107676_3_alg».proof.Proof.RefValue
import proofs.«413298_j60790967107676_3_alg».proof.Proof.PreFacts
import Idealize.ShloMosaic.Adequacy
import Idealize.ShloMosaic.Init

noncomputable section

namespace Cert.Proof

open Idealize.ShloMosaic Idealize.SL.Sem Cert.Interact

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- Both runs end at their side's formula of arguments that agree; under the precondition (finite tables, no negative
    index word) the two formulas are equal. -/
theorem algebraic : Cert.algebraic_KernelIdeal_ReferenceIdeal := by
  intro m ρ m' ρ' hpre hagree
  refine ⟨_, Cert.KernelIdeal.Tail.run m ρ, ?_⟩
  refine (θ_run Cert.ReferenceIdeal.defs _ _).mono (fun _ h c => ⟨(h c).1.trans ?_, (h c).2⟩)
    (Cert.ReferenceIdeal.RefValue.run m' ρ')
  obtain ⟨a0, a1, a2, a3, a4, a5, a6, a7, a8⟩ := hagree c
  rw [a0, a1, a2, a3, a4, a5, a6, a7, a8]
  obtain ⟨f0, f4, f5, f6, f7, f8, n1, n2, n3⟩ := Cert.PreFacts.of_pre _ _ _ _ _ _ _ _ _ (hpre c)
  exact (resKAt_eq_resRAt _ _ _ _ _ _ _ _ _ f0 f4 f5 f6 f7 f8 n1 n2 n3).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
